-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x25x508x508 : Shape := ⟨4, ![8, 25, 508, 508]⟩
abbrev S8x3x512x512 : Shape := ⟨4, ![8, 3, 512, 512]⟩
abbrev S_ : Shape := ⟨0, ![]⟩

class Facts : Prop where
  bcast_S_S8x25x508x508 : S_.BroadcastsInDim S8x25x508x508 (![] : Fin 0 → Fin S8x25x508x508.rank)
  reducesTo_S8x25x508x508_S_d0_1_2_3 : S8x25x508x508.ReducesTo [0, 1, 2, 3] S_
  h_S_ : 0 < S_.numel
  bcast_S_S8x3x512x512 : S_.BroadcastsInDim S8x3x512x512 (![] : Fin 0 → Fin S8x3x512x512.rank)
  reducesTo_S8x3x512x512_S_d0_1_2_3 : S8x3x512x512.ReducesTo [0, 1, 2, 3] S_

variable [Facts]

def fn {F : FTy → Type} [FloatOps F] (main_arg0 : FVec F S8x25x508x508 .f32) (main_arg1 : FVec F S8x3x512x512 .f32) : IVec S_ 1 :=
  let main_v0 : FVec F S8x25x508x508 .f32 := Host.absf main_arg0
  let main_cst : FVec F S_ .f32 := constant S_ .f32 0x7F800000#32
  let main_v1 : FVec F S8x25x508x508 .f32 := broadcastInDim S8x25x508x508 ![] bcast_S_S8x25x508x508 main_cst
  let main_v2 : IVec S8x25x508x508 1 := cmpf .olt main_v0 main_v1
  let main_c : IVec S_ 1 := constantI S_ 1 1#1
  let main_v3 : IVec S_ 1 := (fun x v => Host.reduce IntOp.andi x v reducesTo_S8x25x508x508_S_d0_1_2_3 h_S_) main_v2 main_c
  let main_v4 : FVec F S8x3x512x512 .f32 := Host.absf main_arg1
  let main_cst_0 : FVec F S_ .f32 := constant S_ .f32 0x7F800000#32
  let main_v5 : FVec F S8x3x512x512 .f32 := broadcastInDim S8x3x512x512 ![] bcast_S_S8x3x512x512 main_cst_0
  let main_v6 : IVec S8x3x512x512 1 := cmpf .olt main_v4 main_v5
  let main_c_1 : IVec S_ 1 := constantI S_ 1 1#1
  let main_v7 : IVec S_ 1 := (fun x v => Host.reduce IntOp.andi x v reducesTo_S8x3x512x512_S_d0_1_2_3 h_S_) main_v6 main_c_1
  let main_v8 : IVec S_ 1 := andi main_v3 main_v7
  main_v8
-- ==== Kernel.lean ====
abbrev S8x25x508x508 : Shape := ⟨4, ![8, 25, 508, 508]⟩
abbrev S8x3x512x512 : Shape := ⟨4, ![8, 3, 512, 512]⟩
abbrev S_ : Shape := ⟨0, ![]⟩
abbrev S8x25x512x508 : Shape := ⟨4, ![8, 25, 512, 508]⟩
abbrev S8x3x516x512 : Shape := ⟨4, ![8, 3, 516, 512]⟩
abbrev S8x3x512x508 : Shape := ⟨4, ![8, 3, 512, 508]⟩
abbrev S8x1x512x508 : Shape := ⟨4, ![8, 1, 512, 508]⟩
abbrev S1x25x128x508 : Shape := ⟨4, ![1, 25, 128, 508]⟩
abbrev S1x3x516x512 : Shape := ⟨4, ![1, 3, 516, 512]⟩
abbrev S1x3x128x508 : Shape := ⟨4, ![1, 3, 128, 508]⟩
abbrev S1x1x128x508 : Shape := ⟨4, ![1, 1, 128, 508]⟩
abbrev S1x3x132x512 : Shape := ⟨4, ![1, 3, 132, 512]⟩
abbrev S3x132x512 : Shape := ⟨3, ![3, 132, 512]⟩
abbrev S3x128x508 : Shape := ⟨3, ![3, 128, 508]⟩
abbrev S128x508 : Shape := ⟨2, ![128, 508]⟩
abbrev S1x128x508 : Shape := ⟨3, ![1, 128, 508]⟩
abbrev S25x128x508 : Shape := ⟨3, ![25, 128, 508]⟩
abbrev S8x3x508x508 : Shape := ⟨4, ![8, 3, 508, 508]⟩
abbrev S8x1x508x508 : Shape := ⟨4, ![8, 1, 508, 508]⟩

abbrev nBuf : Space → Nat
  | .hbm => 12
  | .vmem => 8
  | .smem => 0
  | _ => 0

abbrev bufTy : (tb : Table) → Fin (tcTables nBuf tb) → BufTy
  | .hbm, ⟨0, _⟩ => ⟨S8x25x508x508, .f32⟩
  | .hbm, ⟨1, _⟩ => ⟨S8x3x512x512, .f32⟩
  | .hbm, ⟨2, _⟩ => ⟨S_, .i32⟩
  | .hbm, ⟨3, _⟩ => ⟨S_, .f32⟩
  | .hbm, ⟨4, _⟩ => ⟨S8x25x512x508, .f32⟩
  | .hbm, ⟨5, _⟩ => ⟨S_, .i32⟩
  | .hbm, ⟨6, _⟩ => ⟨S_, .f32⟩
  | .hbm, ⟨7, _⟩ => ⟨S8x3x516x512, .f32⟩
  | .hbm, ⟨8, _⟩ => ⟨S8x3x512x508, .f32⟩
  | .hbm, ⟨9, _⟩ => ⟨S8x1x512x508, .f32⟩
  | .hbm, ⟨10, _⟩ => ⟨S8x3x508x508, .f32⟩
  | .hbm, ⟨11, _⟩ => ⟨S8x1x508x508, .f32⟩
  | .local _ .vmem, ⟨0, _⟩ => ⟨S1x25x128x508, .f32⟩
  | .local _ .vmem, ⟨1, _⟩ => ⟨S1x25x128x508, .f32⟩
  | .local _ .vmem, ⟨2, _⟩ => ⟨S1x3x516x512, .f32⟩
  | .local _ .vmem, ⟨3, _⟩ => ⟨S1x3x516x512, .f32⟩
  | .local _ .vmem, ⟨4, _⟩ => ⟨S1x3x128x508, .f32⟩
  | .local _ .vmem, ⟨5, _⟩ => ⟨S1x3x128x508, .f32⟩
  | .local _ .vmem, ⟨6, _⟩ => ⟨S1x1x128x508, .f32⟩
  | .local _ .vmem, ⟨7, _⟩ => ⟨S1x1x128x508, .f32⟩
  | _, _ => ⟨S8x25x508x508, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 4 → Nat :=
  let c0 : Index := 0#32
  let c0_0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x25x128x508 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x516x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x128x508 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x508 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S8x25x508x508_S8x25x512x508_000_000_040_000 : S8x25x508x508.Pads (![0, 0, 0, 0] : Fin 4 → Nat) ![0, 0, 4, 0] ![0, 0, 0, 0] S8x25x512x508
  h_S_ : 0 < S_.numel
  pads_S8x3x512x512_S8x3x516x512_000_000_040_000 : S8x3x512x512.Pads (![0, 0, 0, 0] : Fin 4 → Nat) ![0, 0, 4, 0] ![0, 0, 0, 0] S8x3x516x512
  h_S1x3x132x512 : 0 < S1x3x132x512.numel
  shapeCasts_S1x3x132x512_S3x132x512 : S1x3x132x512.ShapeCasts S3x132x512
  inb_S1x25x128x508_S1x1x128x508_0_0_0_0 : ∀ a, (![0, 0, 0, 0] : Fin 4 → Nat) a + S1x1x128x508.size a ≤ S1x25x128x508.size a
  h_S1x1x128x508 : 0 < S1x1x128x508.numel
  shapeCasts_S1x1x128x508_S128x508 : S1x1x128x508.ShapeCasts S128x508
  shapeCasts_S128x508_S1x128x508 : S128x508.ShapeCasts S1x128x508
  slices_S3x132x512_o0_0_0_S3x128x508 : S3x132x512.Slices ![0, 0, 0] S3x128x508
  broadcasts_S1x128x508_S3x128x508 : S1x128x508.Broadcasts S3x128x508
  inb_S1x25x128x508_S1x1x128x508_0_1_0_0 : ∀ a, (![0, 1, 0, 0] : Fin 4 → Nat) a + S1x1x128x508.size a ≤ S1x25x128x508.size a
  slices_S3x132x512_o0_0_1_S3x128x508 : S3x132x512.Slices ![0, 0, 1] S3x128x508
  inb_S1x25x128x508_S1x1x128x508_0_2_0_0 : ∀ a, (![0, 2, 0, 0] : Fin 4 → Nat) a + S1x1x128x508.size a ≤ S1x25x128x508.size a
  slices_S3x132x512_o0_0_2_S3x128x508 : S3x132x512.Slices ![0, 0, 2] S3x128x508
  inb_S1x25x128x508_S1x1x128x508_0_3_0_0 : ∀ a, (![0, 3, 0, 0] : Fin 4 → Nat) a + S1x1x128x508.size a ≤ S1x25x128x508.size a
  slices_S3x132x512_o0_0_3_S3x128x508 : S3x132x512.Slices ![0, 0, 3] S3x128x508
  inb_S1x25x128x508_S1x1x128x508_0_4_0_0 : ∀ a, (![0, 4, 0, 0] : Fin 4 → Nat) a + S1x1x128x508.size a ≤ S1x25x128x508.size a
  slices_S3x132x512_o0_0_4_S3x128x508 : S3x132x512.Slices ![0, 0, 4] S3x128x508
  inb_S1x25x128x508_S1x1x128x508_0_5_0_0 : ∀ a, (![0, 5, 0, 0] : Fin 4 → Nat) a + S1x1x128x508.size a ≤ S1x25x128x508.size a
  slices_S3x132x512_o0_1_0_S3x128x508 : S3x132x512.Slices ![0, 1, 0] S3x128x508
  inb_S1x25x128x508_S1x1x128x508_0_6_0_0 : ∀ a, (![0, 6, 0, 0] : Fin 4 → Nat) a + S1x1x128x508.size a ≤ S1x25x128x508.size a
  slices_S3x132x512_o0_1_1_S3x128x508 : S3x132x512.Slices ![0, 1, 1] S3x128x508
  inb_S1x25x128x508_S1x1x128x508_0_7_0_0 : ∀ a, (![0, 7, 0, 0] : Fin 4 → Nat) a + S1x1x128x508.size a ≤ S1x25x128x508.size a
  slices_S3x132x512_o0_1_2_S3x128x508 : S3x132x512.Slices ![0, 1, 2] S3x128x508
  inb_S1x25x128x508_S1x1x128x508_0_8_0_0 : ∀ a, (![0, 8, 0, 0] : Fin 4 → Nat) a + S1x1x128x508.size a ≤ S1x25x128x508.size a
  slices_S3x132x512_o0_1_3_S3x128x508 : S3x132x512.Slices ![0, 1, 3] S3x128x508
  inb_S1x25x128x508_S1x1x128x508_0_9_0_0 : ∀ a, (![0, 9, 0, 0] : Fin 4 → Nat) a + S1x1x128x508.size a ≤ S1x25x128x508.size a
  slices_S3x132x512_o0_1_4_S3x128x508 : S3x132x512.Slices ![0, 1, 4] S3x128x508
  inb_S1x25x128x508_S1x1x128x508_0_10_0_0 : ∀ a, (![0, 10, 0, 0] : Fin 4 → Nat) a + S1x1x128x508.size a ≤ S1x25x128x508.size a
  slices_S3x132x512_o0_2_0_S3x128x508 : S3x132x512.Slices ![0, 2, 0] S3x128x508
  inb_S1x25x128x508_S1x1x128x508_0_11_0_0 : ∀ a, (![0, 11, 0, 0] : Fin 4 → Nat) a + S1x1x128x508.size a ≤ S1x25x128x508.size a
  slices_S3x132x512_o0_2_1_S3x128x508 : S3x132x512.Slices ![0, 2, 1] S3x128x508
  inb_S1x25x128x508_S1x1x128x508_0_12_0_0 : ∀ a, (![0, 12, 0, 0] : Fin 4 → Nat) a + S1x1x128x508.size a ≤ S1x25x128x508.size a
  slices_S3x132x512_o0_2_2_S3x128x508 : S3x132x512.Slices ![0, 2, 2] S3x128x508
  inb_S1x25x128x508_S1x1x128x508_0_13_0_0 : ∀ a, (![0, 13, 0, 0] : Fin 4 → Nat) a + S1x1x128x508.size a ≤ S1x25x128x508.size a
  slices_S3x132x512_o0_2_3_S3x128x508 : S3x132x512.Slices ![0, 2, 3] S3x128x508
  inb_S1x25x128x508_S1x1x128x508_0_14_0_0 : ∀ a, (![0, 14, 0, 0] : Fin 4 → Nat) a + S1x1x128x508.size a ≤ S1x25x128x508.size a
  slices_S3x132x512_o0_2_4_S3x128x508 : S3x132x512.Slices ![0, 2, 4] S3x128x508
  inb_S1x25x128x508_S1x1x128x508_0_15_0_0 : ∀ a, (![0, 15, 0, 0] : Fin 4 → Nat) a + S1x1x128x508.size a ≤ S1x25x128x508.size a
  slices_S3x132x512_o0_3_0_S3x128x508 : S3x132x512.Slices ![0, 3, 0] S3x128x508
  inb_S1x25x128x508_S1x1x128x508_0_16_0_0 : ∀ a, (![0, 16, 0, 0] : Fin 4 → Nat) a + S1x1x128x508.size a ≤ S1x25x128x508.size a
  slices_S3x132x512_o0_3_1_S3x128x508 : S3x132x512.Slices ![0, 3, 1] S3x128x508
  inb_S1x25x128x508_S1x1x128x508_0_17_0_0 : ∀ a, (![0, 17, 0, 0] : Fin 4 → Nat) a + S1x1x128x508.size a ≤ S1x25x128x508.size a
  slices_S3x132x512_o0_3_2_S3x128x508 : S3x132x512.Slices ![0, 3, 2] S3x128x508
  inb_S1x25x128x508_S1x1x128x508_0_18_0_0 : ∀ a, (![0, 18, 0, 0] : Fin 4 → Nat) a + S1x1x128x508.size a ≤ S1x25x128x508.size a
  slices_S3x132x512_o0_3_3_S3x128x508 : S3x132x512.Slices ![0, 3, 3] S3x128x508
  inb_S1x25x128x508_S1x1x128x508_0_19_0_0 : ∀ a, (![0, 19, 0, 0] : Fin 4 → Nat) a + S1x1x128x508.size a ≤ S1x25x128x508.size a
  slices_S3x132x512_o0_3_4_S3x128x508 : S3x132x512.Slices ![0, 3, 4] S3x128x508
  inb_S1x25x128x508_S1x1x128x508_0_20_0_0 : ∀ a, (![0, 20, 0, 0] : Fin 4 → Nat) a + S1x1x128x508.size a ≤ S1x25x128x508.size a
  slices_S3x132x512_o0_4_0_S3x128x508 : S3x132x512.Slices ![0, 4, 0] S3x128x508
  inb_S1x25x128x508_S1x1x128x508_0_21_0_0 : ∀ a, (![0, 21, 0, 0] : Fin 4 → Nat) a + S1x1x128x508.size a ≤ S1x25x128x508.size a
  slices_S3x132x512_o0_4_1_S3x128x508 : S3x132x512.Slices ![0, 4, 1] S3x128x508
  inb_S1x25x128x508_S1x1x128x508_0_22_0_0 : ∀ a, (![0, 22, 0, 0] : Fin 4 → Nat) a + S1x1x128x508.size a ≤ S1x25x128x508.size a
  slices_S3x132x512_o0_4_2_S3x128x508 : S3x132x512.Slices ![0, 4, 2] S3x128x508
  inb_S1x25x128x508_S1x1x128x508_0_23_0_0 : ∀ a, (![0, 23, 0, 0] : Fin 4 → Nat) a + S1x1x128x508.size a ≤ S1x25x128x508.size a
  slices_S3x132x512_o0_4_3_S3x128x508 : S3x132x512.Slices ![0, 4, 3] S3x128x508
  inb_S1x25x128x508_S1x1x128x508_0_24_0_0 : ∀ a, (![0, 24, 0, 0] : Fin 4 → Nat) a + S1x1x128x508.size a ≤ S1x25x128x508.size a
  slices_S3x132x512_o0_4_4_S3x128x508 : S3x132x512.Slices ![0, 4, 4] S3x128x508
  inb_S1x3x128x508_S1x3x128x508_0_0_0_0 : ∀ a, (![0, 0, 0, 0] : Fin 4 → Nat) a + S1x3x128x508.size a ≤ S1x3x128x508.size a
  h_S1x3x128x508 : 0 < S1x3x128x508.numel
  shapeCasts_S1x3x128x508_S3x128x508 : S1x3x128x508.ShapeCasts S3x128x508
  shapeCasts_S3x128x508_S1x3x128x508 : S3x128x508.ShapeCasts S1x3x128x508
  inb_S1x25x128x508_S1x25x128x508_0_0_0_0 : ∀ a, (![0, 0, 0, 0] : Fin 4 → Nat) a + S1x25x128x508.size a ≤ S1x25x128x508.size a
  h_S1x25x128x508 : 0 < S1x25x128x508.numel
  shapeCasts_S1x25x128x508_S25x128x508 : S1x25x128x508.ShapeCasts S25x128x508
  reduces_S25x128x508_S128x508 : S25x128x508.Reduces [0] S128x508
  inb_S1x1x128x508_S1x1x128x508_0_0_0_0 : ∀ a, (![0, 0, 0, 0] : Fin 4 → Nat) a + S1x1x128x508.size a ≤ S1x1x128x508.size a
  shapeCasts_S128x508_S1x1x128x508 : S128x508.ShapeCasts S1x1x128x508
  slices_S8x3x512x508_S8x3x508x508_0_0_0_0 : S8x3x512x508.Slices ![0, 0, 0, 0] S8x3x508x508
  slices_S8x1x512x508_S8x1x508x508_0_0_0_0 : S8x1x512x508.Slices ![0, 0, 0, 0] S8x1x508x508
  hrank0 : 0 < grid0.rank
  k0_mult1_dvd : ∀ i : grid0.Coords, 128 ∣ (k0_mult1 i).toNat
  k0_off1_inb : ∀ i : grid0.Coords, ∀ a, (k0_off1 i) a + S1x3x132x512.size a ≤ S1x3x516x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25x128x508.size a ≤ S8x25x512x508.size a
  hwx0_0 : ∀ i : grid0.Coords, EltTy.bits .f32 = 32 ∨ (Rect.block (s := S8x25x512x508) S1x25x128x508.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x516x512.size a ≤ S8x3x516x512.size a
  hwx0_1 : ∀ i : grid0.Coords, EltTy.bits .f32 = 32 ∨ (Rect.block (s := S8x3x516x512) S1x3x516x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128x508.size a ≤ S8x3x512x508.size a
  hwx0_2 : ∀ i : grid0.Coords, EltTy.bits .f32 = 32 ∨ (Rect.block (s := S8x3x512x508) S1x3x128x508.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x508.size a ≤ S8x1x512x508.size a
  hwx0_3 : ∀ i : grid0.Coords, EltTy.bits .f32 = 32 ∨ (Rect.block (s := S8x1x512x508) S1x1x128x508.size (cc0_transform_3 i) (hinb0_3 i)).WholeWords (EltTy.packing .f32)

variable [Facts₀]

abbrev win0_0 : Pipeline.Window sig grid0 :=
  Pipeline.Window.ofSpec (Memref.whole main_v0) S1x25x128x508.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x516x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x3x128x508.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128x508.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x25x508x508 : Shape := ⟨4, ![8, 25, 508, 508]⟩
abbrev S8x3x512x512 : Shape := ⟨4, ![8, 3, 512, 512]⟩
abbrev S_ : Shape := ⟨0, ![]⟩
abbrev S8x3x508x508 : Shape := ⟨4, ![8, 3, 508, 508]⟩
abbrev S8x1x508x508 : Shape := ⟨4, ![8, 1, 508, 508]⟩
abbrev S8x508x508 : Shape := ⟨3, ![8, 508, 508]⟩

abbrev nBuf : Space → Nat
  | .hbm => 182
  | .vmem => 0
  | .smem => 0
  | _ => 0

abbrev hbmTy0_0 (i : Nat) : BufTy := match i % 128 with
  | 0 => ⟨S8x25x508x508, .f32⟩
  | 1 => ⟨S8x3x512x512, .f32⟩
  | 2 => ⟨S_, .f32⟩
  | 3 => ⟨S8x3x508x508, .f32⟩
  | 4 => ⟨S8x1x508x508, .f32⟩
  | 5 => ⟨S8x508x508, .f32⟩
  | 6 => ⟨S8x1x508x508, .f32⟩
  | 7 => ⟨S8x3x508x508, .f32⟩
  | 8 => ⟨S8x3x508x508, .f32⟩
  | 9 => ⟨S8x3x508x508, .f32⟩
  | 10 => ⟨S8x3x508x508, .f32⟩
  | 11 => ⟨S8x1x508x508, .f32⟩
  | 12 => ⟨S8x508x508, .f32⟩
  | 13 => ⟨S8x1x508x508, .f32⟩
  | 14 => ⟨S8x3x508x508, .f32⟩
  | 15 => ⟨S8x3x508x508, .f32⟩
  | 16 => ⟨S8x3x508x508, .f32⟩
  | 17 => ⟨S8x3x508x508, .f32⟩
  | 18 => ⟨S8x1x508x508, .f32⟩
  | 19 => ⟨S8x508x508, .f32⟩
  | 20 => ⟨S8x1x508x508, .f32⟩
  | 21 => ⟨S8x3x508x508, .f32⟩
  | 22 => ⟨S8x3x508x508, .f32⟩
  | 23 => ⟨S8x3x508x508, .f32⟩
  | 24 => ⟨S8x3x508x508, .f32⟩
  | 25 => ⟨S8x1x508x508, .f32⟩
  | 26 => ⟨S8x508x508, .f32⟩
  | 27 => ⟨S8x1x508x508, .f32⟩
  | 28 => ⟨S8x3x508x508, .f32⟩
  | 29 => ⟨S8x3x508x508, .f32⟩
  | 30 => ⟨S8x3x508x508, .f32⟩
  | 31 => ⟨S8x3x508x508, .f32⟩
  | 32 => ⟨S8x1x508x508, .f32⟩
  | 33 => ⟨S8x508x508, .f32⟩
  | 34 => ⟨S8x1x508x508, .f32⟩
  | 35 => ⟨S8x3x508x508, .f32⟩
  | 36 => ⟨S8x3x508x508, .f32⟩
  | 37 => ⟨S8x3x508x508, .f32⟩
  | 38 => ⟨S8x3x508x508, .f32⟩
  | 39 => ⟨S8x1x508x508, .f32⟩
  | 40 => ⟨S8x508x508, .f32⟩
  | 41 => ⟨S8x1x508x508, .f32⟩
  | 42 => ⟨S8x3x508x508, .f32⟩
  | 43 => ⟨S8x3x508x508, .f32⟩
  | 44 => ⟨S8x3x508x508, .f32⟩
  | 45 => ⟨S8x3x508x508, .f32⟩
  | 46 => ⟨S8x1x508x508, .f32⟩
  | 47 => ⟨S8x508x508, .f32⟩
  | 48 => ⟨S8x1x508x508, .f32⟩
  | 49 => ⟨S8x3x508x508, .f32⟩
  | 50 => ⟨S8x3x508x508, .f32⟩
  | 51 => ⟨S8x3x508x508, .f32⟩
  | 52 => ⟨S8x3x508x508, .f32⟩
  | 53 => ⟨S8x1x508x508, .f32⟩
  | 54 => ⟨S8x508x508, .f32⟩
  | 55 => ⟨S8x1x508x508, .f32⟩
  | 56 => ⟨S8x3x508x508, .f32⟩
  | 57 => ⟨S8x3x508x508, .f32⟩
  | 58 => ⟨S8x3x508x508, .f32⟩
  | 59 => ⟨S8x3x508x508, .f32⟩
  | 60 => ⟨S8x1x508x508, .f32⟩
  | 61 => ⟨S8x508x508, .f32⟩
  | 62 => ⟨S8x1x508x508, .f32⟩
  | 63 => ⟨S8x3x508x508, .f32⟩
  | 64 => ⟨S8x3x508x508, .f32⟩
  | 65 => ⟨S8x3x508x508, .f32⟩
  | 66 => ⟨S8x3x508x508, .f32⟩
  | 67 => ⟨S8x1x508x508, .f32⟩
  | 68 => ⟨S8x508x508, .f32⟩
  | 69 => ⟨S8x1x508x508, .f32⟩
  | 70 => ⟨S8x3x508x508, .f32⟩
  | 71 => ⟨S8x3x508x508, .f32⟩
  | 72 => ⟨S8x3x508x508, .f32⟩
  | 73 => ⟨S8x3x508x508, .f32⟩
  | 74 => ⟨S8x1x508x508, .f32⟩
  | 75 => ⟨S8x508x508, .f32⟩
  | 76 => ⟨S8x1x508x508, .f32⟩
  | 77 => ⟨S8x3x508x508, .f32⟩
  | 78 => ⟨S8x3x508x508, .f32⟩
  | 79 => ⟨S8x3x508x508, .f32⟩
  | 80 => ⟨S8x3x508x508, .f32⟩
  | 81 => ⟨S8x1x508x508, .f32⟩
  | 82 => ⟨S8x508x508, .f32⟩
  | 83 => ⟨S8x1x508x508, .f32⟩
  | 84 => ⟨S8x3x508x508, .f32⟩
  | 85 => ⟨S8x3x508x508, .f32⟩
  | 86 => ⟨S8x3x508x508, .f32⟩
  | 87 => ⟨S8x3x508x508, .f32⟩
  | 88 => ⟨S8x1x508x508, .f32⟩
  | 89 => ⟨S8x508x508, .f32⟩
  | 90 => ⟨S8x1x508x508, .f32⟩
  | 91 => ⟨S8x3x508x508, .f32⟩
  | 92 => ⟨S8x3x508x508, .f32⟩
  | 93 => ⟨S8x3x508x508, .f32⟩
  | 94 => ⟨S8x3x508x508, .f32⟩
  | 95 => ⟨S8x1x508x508, .f32⟩
  | 96 => ⟨S8x508x508, .f32⟩
  | 97 => ⟨S8x1x508x508, .f32⟩
  | 98 => ⟨S8x3x508x508, .f32⟩
  | 99 => ⟨S8x3x508x508, .f32⟩
  | 100 => ⟨S8x3x508x508, .f32⟩
  | 101 => ⟨S8x3x508x508, .f32⟩
  | 102 => ⟨S8x1x508x508, .f32⟩
  | 103 => ⟨S8x508x508, .f32⟩
  | 104 => ⟨S8x1x508x508, .f32⟩
  | 105 => ⟨S8x3x508x508, .f32⟩
  | 106 => ⟨S8x3x508x508, .f32⟩
  | 107 => ⟨S8x3x508x508, .f32⟩
  | 108 => ⟨S8x3x508x508, .f32⟩
  | 109 => ⟨S8x1x508x508, .f32⟩
  | 110 => ⟨S8x508x508, .f32⟩
  | 111 => ⟨S8x1x508x508, .f32⟩
  | 112 => ⟨S8x3x508x508, .f32⟩
  | 113 => ⟨S8x3x508x508, .f32⟩
  | 114 => ⟨S8x3x508x508, .f32⟩
  | 115 => ⟨S8x3x508x508, .f32⟩
  | 116 => ⟨S8x1x508x508, .f32⟩
  | 117 => ⟨S8x508x508, .f32⟩
  | 118 => ⟨S8x1x508x508, .f32⟩
  | 119 => ⟨S8x3x508x508, .f32⟩
  | 120 => ⟨S8x3x508x508, .f32⟩
  | 121 => ⟨S8x3x508x508, .f32⟩
  | 122 => ⟨S8x3x508x508, .f32⟩
  | 123 => ⟨S8x1x508x508, .f32⟩
  | 124 => ⟨S8x508x508, .f32⟩
  | 125 => ⟨S8x1x508x508, .f32⟩
  | 126 => ⟨S8x3x508x508, .f32⟩
  | 127 => ⟨S8x3x508x508, .f32⟩
  | _ => ⟨S8x25x508x508, .f32⟩

abbrev hbmTy0_1 (i : Nat) : BufTy := match i % 128 with
  | 0 => ⟨S8x3x508x508, .f32⟩
  | 1 => ⟨S8x3x508x508, .f32⟩
  | 2 => ⟨S8x1x508x508, .f32⟩
  | 3 => ⟨S8x508x508, .f32⟩
  | 4 => ⟨S8x1x508x508, .f32⟩
  | 5 => ⟨S8x3x508x508, .f32⟩
  | 6 => ⟨S8x3x508x508, .f32⟩
  | 7 => ⟨S8x3x508x508, .f32⟩
  | 8 => ⟨S8x3x508x508, .f32⟩
  | 9 => ⟨S8x1x508x508, .f32⟩
  | 10 => ⟨S8x508x508, .f32⟩
  | 11 => ⟨S8x1x508x508, .f32⟩
  | 12 => ⟨S8x3x508x508, .f32⟩
  | 13 => ⟨S8x3x508x508, .f32⟩
  | 14 => ⟨S8x3x508x508, .f32⟩
  | 15 => ⟨S8x3x508x508, .f32⟩
  | 16 => ⟨S8x1x508x508, .f32⟩
  | 17 => ⟨S8x508x508, .f32⟩
  | 18 => ⟨S8x1x508x508, .f32⟩
  | 19 => ⟨S8x3x508x508, .f32⟩
  | 20 => ⟨S8x3x508x508, .f32⟩
  | 21 => ⟨S8x3x508x508, .f32⟩
  | 22 => ⟨S8x3x508x508, .f32⟩
  | 23 => ⟨S8x1x508x508, .f32⟩
  | 24 => ⟨S8x508x508, .f32⟩
  | 25 => ⟨S8x1x508x508, .f32⟩
  | 26 => ⟨S8x3x508x508, .f32⟩
  | 27 => ⟨S8x3x508x508, .f32⟩
  | 28 => ⟨S8x3x508x508, .f32⟩
  | 29 => ⟨S8x3x508x508, .f32⟩
  | 30 => ⟨S8x1x508x508, .f32⟩
  | 31 => ⟨S8x508x508, .f32⟩
  | 32 => ⟨S8x1x508x508, .f32⟩
  | 33 => ⟨S8x3x508x508, .f32⟩
  | 34 => ⟨S8x3x508x508, .f32⟩
  | 35 => ⟨S8x3x508x508, .f32⟩
  | 36 => ⟨S8x3x508x508, .f32⟩
  | 37 => ⟨S8x1x508x508, .f32⟩
  | 38 => ⟨S8x508x508, .f32⟩
  | 39 => ⟨S8x1x508x508, .f32⟩
  | 40 => ⟨S8x3x508x508, .f32⟩
  | 41 => ⟨S8x3x508x508, .f32⟩
  | 42 => ⟨S8x3x508x508, .f32⟩
  | 43 => ⟨S8x3x508x508, .f32⟩
  | 44 => ⟨S8x1x508x508, .f32⟩
  | 45 => ⟨S8x508x508, .f32⟩
  | 46 => ⟨S8x1x508x508, .f32⟩
  | 47 => ⟨S8x3x508x508, .f32⟩
  | 48 => ⟨S8x3x508x508, .f32⟩
  | 49 => ⟨S8x3x508x508, .f32⟩
  | 50 => ⟨S8x3x508x508, .f32⟩
  | 51 => ⟨S_, .f32⟩
  | 52 => ⟨S8x508x508, .f32⟩
  | 53 => ⟨S8x1x508x508, .f32⟩
  | _ => ⟨S8x25x508x508, .f32⟩

abbrev hbmTy (i : Nat) : BufTy := match i / 128 with
  | 0 => hbmTy0_0 i
  | 1 => hbmTy0_1 i
  | _ => ⟨S8x25x508x508, .f32⟩

abbrev bufTy : (tb : Table) → Fin (tcTables nBuf tb) → BufTy
  | .hbm, ⟨i, _⟩ => hbmTy i
  | _, _ => ⟨S8x25x508x508, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩
abbrev main_cst_0 : Ref sig .tc := ⟨.hbm, 179, rfl⟩
abbrev main_v176 : Ref sig .tc := ⟨.hbm, 180, rfl⟩
abbrev main_v177 : Ref sig .tc := ⟨.hbm, 181, rfl⟩

abbrev nD : Nat := 1
abbrev τ : Topo := Topo.v7x

variable {F : FTy → Type} [FloatOps F]

class Facts₀ : Prop where
  bcast_S_S8x3x508x508 : S_.BroadcastsInDim S8x3x508x508 (![] : Fin 0 → Fin S8x3x508x508.rank)
  slices_S8x25x508x508_S8x1x508x508_0_0_0_0 : S8x25x508x508.Slices ![0, 0, 0, 0] S8x1x508x508
  shapeCasts_S8x1x508x508_S8x508x508 : S8x1x508x508.ShapeCasts S8x508x508
  bcast_S8x508x508_S8x1x508x508_0_2_3 : S8x508x508.BroadcastsInDim S8x1x508x508 (![0, 2, 3] : Fin 3 → Fin S8x1x508x508.rank)
  slices_S8x3x512x512_S8x3x508x508_0_0_0_0 : S8x3x512x512.Slices ![0, 0, 0, 0] S8x3x508x508
  bcast_S8x1x508x508_S8x3x508x508_0_1_2_3 : S8x1x508x508.BroadcastsInDim S8x3x508x508 (![0, 1, 2, 3] : Fin 4 → Fin S8x3x508x508.rank)
  slices_S8x25x508x508_S8x1x508x508_0_1_0_0 : S8x25x508x508.Slices ![0, 1, 0, 0] S8x1x508x508
  slices_S8x3x512x512_S8x3x508x508_0_0_0_1 : S8x3x512x512.Slices ![0, 0, 0, 1] S8x3x508x508
  slices_S8x25x508x508_S8x1x508x508_0_2_0_0 : S8x25x508x508.Slices ![0, 2, 0, 0] S8x1x508x508
  slices_S8x3x512x512_S8x3x508x508_0_0_0_2 : S8x3x512x512.Slices ![0, 0, 0, 2] S8x3x508x508
  slices_S8x25x508x508_S8x1x508x508_0_3_0_0 : S8x25x508x508.Slices ![0, 3, 0, 0] S8x1x508x508
  slices_S8x3x512x512_S8x3x508x508_0_0_0_3 : S8x3x512x512.Slices ![0, 0, 0, 3] S8x3x508x508
  slices_S8x25x508x508_S8x1x508x508_0_4_0_0 : S8x25x508x508.Slices ![0, 4, 0, 0] S8x1x508x508
  slices_S8x3x512x512_S8x3x508x508_0_0_0_4 : S8x3x512x512.Slices ![0, 0, 0, 4] S8x3x508x508
  slices_S8x25x508x508_S8x1x508x508_0_5_0_0 : S8x25x508x508.Slices ![0, 5, 0, 0] S8x1x508x508
  slices_S8x3x512x512_S8x3x508x508_0_0_1_0 : S8x3x512x512.Slices ![0, 0, 1, 0] S8x3x508x508
  slices_S8x25x508x508_S8x1x508x508_0_6_0_0 : S8x25x508x508.Slices ![0, 6, 0, 0] S8x1x508x508
  slices_S8x3x512x512_S8x3x508x508_0_0_1_1 : S8x3x512x512.Slices ![0, 0, 1, 1] S8x3x508x508
  slices_S8x25x508x508_S8x1x508x508_0_7_0_0 : S8x25x508x508.Slices ![0, 7, 0, 0] S8x1x508x508
  slices_S8x3x512x512_S8x3x508x508_0_0_1_2 : S8x3x512x512.Slices ![0, 0, 1, 2] S8x3x508x508
  slices_S8x25x508x508_S8x1x508x508_0_8_0_0 : S8x25x508x508.Slices ![0, 8, 0, 0] S8x1x508x508
  slices_S8x3x512x512_S8x3x508x508_0_0_1_3 : S8x3x512x512.Slices ![0, 0, 1, 3] S8x3x508x508
  slices_S8x25x508x508_S8x1x508x508_0_9_0_0 : S8x25x508x508.Slices ![0, 9, 0, 0] S8x1x508x508
  slices_S8x3x512x512_S8x3x508x508_0_0_1_4 : S8x3x512x512.Slices ![0, 0, 1, 4] S8x3x508x508
  slices_S8x25x508x508_S8x1x508x508_0_10_0_0 : S8x25x508x508.Slices ![0, 10, 0, 0] S8x1x508x508
  slices_S8x3x512x512_S8x3x508x508_0_0_2_0 : S8x3x512x512.Slices ![0, 0, 2, 0] S8x3x508x508
  slices_S8x25x508x508_S8x1x508x508_0_11_0_0 : S8x25x508x508.Slices ![0, 11, 0, 0] S8x1x508x508
  slices_S8x3x512x512_S8x3x508x508_0_0_2_1 : S8x3x512x512.Slices ![0, 0, 2, 1] S8x3x508x508
  slices_S8x25x508x508_S8x1x508x508_0_12_0_0 : S8x25x508x508.Slices ![0, 12, 0, 0] S8x1x508x508
  slices_S8x3x512x512_S8x3x508x508_0_0_2_2 : S8x3x512x512.Slices ![0, 0, 2, 2] S8x3x508x508
  slices_S8x25x508x508_S8x1x508x508_0_13_0_0 : S8x25x508x508.Slices ![0, 13, 0, 0] S8x1x508x508
  slices_S8x3x512x512_S8x3x508x508_0_0_2_3 : S8x3x512x512.Slices ![0, 0, 2, 3] S8x3x508x508
  slices_S8x25x508x508_S8x1x508x508_0_14_0_0 : S8x25x508x508.Slices ![0, 14, 0, 0] S8x1x508x508
  slices_S8x3x512x512_S8x3x508x508_0_0_2_4 : S8x3x512x512.Slices ![0, 0, 2, 4] S8x3x508x508
  slices_S8x25x508x508_S8x1x508x508_0_15_0_0 : S8x25x508x508.Slices ![0, 15, 0, 0] S8x1x508x508
  slices_S8x3x512x512_S8x3x508x508_0_0_3_0 : S8x3x512x512.Slices ![0, 0, 3, 0] S8x3x508x508
  slices_S8x25x508x508_S8x1x508x508_0_16_0_0 : S8x25x508x508.Slices ![0, 16, 0, 0] S8x1x508x508
  slices_S8x3x512x512_S8x3x508x508_0_0_3_1 : S8x3x512x512.Slices ![0, 0, 3, 1] S8x3x508x508
  slices_S8x25x508x508_S8x1x508x508_0_17_0_0 : S8x25x508x508.Slices ![0, 17, 0, 0] S8x1x508x508
  slices_S8x3x512x512_S8x3x508x508_0_0_3_2 : S8x3x512x512.Slices ![0, 0, 3, 2] S8x3x508x508
  slices_S8x25x508x508_S8x1x508x508_0_18_0_0 : S8x25x508x508.Slices ![0, 18, 0, 0] S8x1x508x508
  slices_S8x3x512x512_S8x3x508x508_0_0_3_3 : S8x3x512x512.Slices ![0, 0, 3, 3] S8x3x508x508
  slices_S8x25x508x508_S8x1x508x508_0_19_0_0 : S8x25x508x508.Slices ![0, 19, 0, 0] S8x1x508x508
  slices_S8x3x512x512_S8x3x508x508_0_0_3_4 : S8x3x512x512.Slices ![0, 0, 3, 4] S8x3x508x508
  slices_S8x25x508x508_S8x1x508x508_0_20_0_0 : S8x25x508x508.Slices ![0, 20, 0, 0] S8x1x508x508
  slices_S8x3x512x512_S8x3x508x508_0_0_4_0 : S8x3x512x512.Slices ![0, 0, 4, 0] S8x3x508x508
  slices_S8x25x508x508_S8x1x508x508_0_21_0_0 : S8x25x508x508.Slices ![0, 21, 0, 0] S8x1x508x508
  slices_S8x3x512x512_S8x3x508x508_0_0_4_1 : S8x3x512x512.Slices ![0, 0, 4, 1] S8x3x508x508
  slices_S8x25x508x508_S8x1x508x508_0_22_0_0 : S8x25x508x508.Slices ![0, 22, 0, 0] S8x1x508x508
  slices_S8x3x512x512_S8x3x508x508_0_0_4_2 : S8x3x512x512.Slices ![0, 0, 4, 2] S8x3x508x508
  slices_S8x25x508x508_S8x1x508x508_0_23_0_0 : S8x25x508x508.Slices ![0, 23, 0, 0] S8x1x508x508
  slices_S8x3x512x512_S8x3x508x508_0_0_4_3 : S8x3x512x512.Slices ![0, 0, 4, 3] S8x3x508x508
  slices_S8x25x508x508_S8x1x508x508_0_24_0_0 : S8x25x508x508.Slices ![0, 24, 0, 0] S8x1x508x508
  slices_S8x3x512x512_S8x3x508x508_0_0_4_4 : S8x3x512x512.Slices ![0, 0, 4, 4] S8x3x508x508
  reducesTo_S8x25x508x508_S8x508x508_d1 : S8x25x508x508.ReducesTo [1] S8x508x508
  h_S_ : 0 < S_.numel

variable [Facts₀]

class Facts : Prop extends Facts₀ where

variable [Facts]
-- ==== Proof.Spec.lean ====
/-
  What both programs compute, as functions of the two argument arrays, index by index over the extended reals.

  The per-pixel filter: the kernel tensor `K` has 25 taps per output pixel, tap `k = 5·di + dj` weighing the input
  pixel displaced by `(di, dj)`:
      weighted[b, c, i, j] = ((z + K[b,0,i,j]·T[b,c,i,j]) + K[b,1,i,j]·T[b,c,i,j+1]) + … + K[b,24,i,j]·T[b,c,i+4,j+4],
  the products added in tap order onto the zero word `z`, and
      tapsum[b, 0, i, j] = ∑ₖ K[b,k,i,j].
  Both are stated for a kernel tensor of any height `H` and an input of any height `HT ≥ H + 4`, so that the same
  definitions speak of the arrays as given (508 and 512 rows) and of the arrays padded with zero rows (512 and 516).
  Nothing here needs the entries to be finite: the only law used later is that padding rows are never read.
-/
import Idealize.ShloMosaic.PureOps.Ideal
import Idealize.ShloMosaic.Lib.ValueIdx

noncomputable section

namespace Cert.TapConv

open Idealize.ShloMosaic Idealize.ShloMosaic.ValueIdx

/-- The ordered sum `z + f 0 + f 1 + … + f 24`, associated to the left: 25 terms added one after the other onto `z`. -/
def chain25 (z : Ideal .f32) (f : (k : ℕ) → k < 25 → Ideal .f32) : Ideal .f32 :=
  z + f 0 (by decide) + f 1 (by decide) + f 2 (by decide) + f 3 (by decide) + f 4 (by decide) + f 5 (by decide) + f 6 (by decide) + f 7 (by decide) + f 8 (by decide) + f 9 (by decide) + f 10 (by decide) + f 11 (by decide) + f 12 (by decide) + f 13 (by decide) + f 14 (by decide) + f 15 (by decide) + f 16 (by decide) + f 17 (by decide) + f 18 (by decide) + f 19 (by decide) + f 20 (by decide) + f 21 (by decide) + f 22 (by decide) + f 23 (by decide) + f 24 (by decide)

/-- Two such sums agree when they start from the same value and agree term by term. -/
theorem chain25_congr (z : Ideal .f32) (f g : (k : ℕ) → k < 25 → Ideal .f32) (h : ∀ k hk, f k hk = g k hk) :
    chain25 z f = chain25 z g := by
  have e : f = g := funext fun k => funext fun hk => h k hk
  rw [e]

section
variable {H HT : ℕ} (hH : H + 4 ≤ HT)
variable (K : (⟨4, ![8, 25, H, 508]⟩ : Shape).Idx → Ideal .f32) (T : (⟨4, ![8, 3, HT, 512]⟩ : Shape).Idx → Ideal .f32)

/-- Tap `k` at output pixel `(b, c, i, j)`: its weight times the input pixel displaced by `(k / 5, k % 5)`. -/
def tap (b : Fin 8) (c : Fin 3) (i : Fin H) (j : Fin 508) (k : ℕ) (hk : k < 25) : Ideal .f32 :=
  K (ix4 b ⟨k, hk⟩ i j)
    * T (ix4 b c ⟨i.val + k / 5, by have := i.isLt; omega⟩ ⟨j.val + k % 5, by have := j.isLt; omega⟩)

/-- The filtered image: the 25 taps' products added in tap order onto the zero word. -/
def weighted : (⟨4, ![8, 3, H, 508]⟩ : Shape).Idx → Ideal .f32 := fun y =>
  chain25 (Ideal.ofBits .f32 0x00000000#32) (fun k hk => tap hH K T (y 0) (y 1) (y 2) (y 3) k hk)

/-- The sum of the 25 taps' weights at each pixel. -/
def tapsum : (⟨4, ![8, 1, H, 508]⟩ : Shape).Idx → Ideal .f32 := fun y =>
  ∑ k : Fin 25, K (ix4 (y 0) k (y 2) (y 3))

end

end Cert.TapConv

end
-- ==== Proof.Taps.lean ====
/-
  One tap, read at an index.

  Both programs form a tap's product from layout operations only: they cut the tap's weight slab out of the kernel
  tensor, drop and re-insert unit axes, copy it across the three channels, and multiply by the input cut at the tap's
  displacement. Read at one output position each of those operations reads its operand at one position, so the product
  is one weight times one input pixel. The two lemmas below say so once for the host program's spelling and once for
  the kernel body's, for ANY tap number and displacement; the 25 taps of either program are instances.
-/
import Idealize.ShloMosaic.PureOps.Ideal
import Idealize.ShloMosaic.Lib.ValueIdx
import Idealize.ShloMosaic.Lib.Pipeline.Value

noncomputable section

namespace Cert.TapConv

open Idealize.ShloMosaic Idealize.ShloMosaic.ValueIdx

/-- The host program's tap `k` with displacement `(di, dj)` at pixel `(b, c, i, j)`: the slice `K[:, k:k+1]`, reshaped to
    drop its unit axis, broadcast back to a unit channel axis and then across the three channels, reads `K[b, k, i, j]`;
    the slice of the input starting at row `di`, column `dj` reads `T[b, c, i + di, j + dj]`. -/
theorem host_tap_apply (K : FVec Ideal ⟨4, ![8, 25, 508, 508]⟩ .f32) (T : FVec Ideal ⟨4, ![8, 3, 512, 512]⟩ .f32)
    (k di dj : ℕ) (hk : k < 25) (hdi : di < 5) (hdj : dj < 5)
    (hK : (⟨4, ![8, 25, 508, 508]⟩ : Shape).Slices ![0, k, 0, 0] ⟨4, ![8, 1, 508, 508]⟩)
    (hc : (⟨4, ![8, 1, 508, 508]⟩ : Shape).ShapeCasts ⟨3, ![8, 508, 508]⟩)
    (hb1 : (⟨3, ![8, 508, 508]⟩ : Shape).BroadcastsInDim ⟨4, ![8, 1, 508, 508]⟩ ![0, 2, 3])
    (hb2 : (⟨4, ![8, 1, 508, 508]⟩ : Shape).BroadcastsInDim ⟨4, ![8, 3, 508, 508]⟩ ![0, 1, 2, 3])
    (hT : (⟨4, ![8, 3, 512, 512]⟩ : Shape).Slices ![0, 0, di, dj] ⟨4, ![8, 3, 508, 508]⟩)
    (b : Fin 8) (c : Fin 3) (i j : Fin 508) :
    mulf (broadcastInDim ⟨4, ![8, 3, 508, 508]⟩ ![0, 1, 2, 3] hb2
          (broadcastInDim ⟨4, ![8, 1, 508, 508]⟩ ![0, 2, 3] hb1
            (shapeCast ⟨3, ![8, 508, 508]⟩ (extractStridedSlice ⟨4, ![8, 1, 508, 508]⟩ ![0, k, 0, 0] K hK) hc)))
        (extractStridedSlice ⟨4, ![8, 3, 508, 508]⟩ ![0, 0, di, dj] T hT) (ix4 b c i j)
      = K (ix4 b ⟨k, hk⟩ i j)
        * T (ix4 b c ⟨i.val + di, by have := i.isLt; omega⟩ ⟨j.val + dj, by have := j.isLt; omega⟩) := by
  rw [mulf_apply]
  congr 1
  · refine (broadcastInDim_apply _ hb2 _ (ix4 b c i j) (ix4 b (0 : Fin 1) i j) (fun a => ?_)).trans ?_
    · match a with
      | ⟨0, _⟩ => rfl
      | ⟨1, _⟩ => rfl
      | ⟨2, _⟩ => rfl
      | ⟨3, _⟩ => rfl
    refine (broadcastInDim_apply _ hb1 _ (ix4 b (0 : Fin 1) i j) (ix3 b i j) (fun a => ?_)).trans ?_
    · match a with
      | ⟨0, _⟩ => rfl
      | ⟨1, _⟩ => rfl
      | ⟨2, _⟩ => rfl
    refine (shapeCast_apply _ hc (ix3 b i j) (ix4 b (0 : Fin 1) i j) ?_).trans ?_
    · rw [Shape.rowMajor_val_four, Shape.rowMajor_val_three]
      show ((b.val * 1 + 0) * 508 + i.val) * 508 + j.val = (b.val * 508 + i.val) * 508 + j.val
      omega
    exact extractStridedSlice_apply _ K hK (ix4 b (0 : Fin 1) i j) (ix4 b ⟨k, hk⟩ i j) (fun a => match a with
      | ⟨0, _⟩ => by show b.val = 0 + b.val; omega
      | ⟨1, _⟩ => by show k = k + 0; omega
      | ⟨2, _⟩ => by show i.val = 0 + i.val; omega
      | ⟨3, _⟩ => by show j.val = 0 + j.val; omega)
  · exact extractStridedSlice_apply _ T hT (ix4 b c i j) _ (fun a => match a with
      | ⟨0, _⟩ => by show b.val = 0 + b.val; omega
      | ⟨1, _⟩ => by show c.val = 0 + c.val; omega
      | ⟨2, _⟩ => by show i.val + di = di + i.val; omega
      | ⟨3, _⟩ => by show j.val + dj = dj + j.val; omega)

/-- The kernel body's tap with displacement `(di, dj)` at block position `(c, r, q)`: the loaded weight slab
    `v : [1, 1, 128, 508]`, reshaped to `[128, 508]` and to `[1, 128, 508]` and copied across the three channels, reads
    `v[0, 0, r, q]`; the slice of the 132-row window starting at row `di`, column `dj` reads `w[c, r + di, q + dj]`. -/
theorem kernel_tap_apply (v : FVec Ideal ⟨4, ![1, 1, 128, 508]⟩ .f32) (w : FVec Ideal ⟨3, ![3, 132, 512]⟩ .f32)
    (di dj : ℕ) (hdi : di < 5) (hdj : dj < 5)
    (h1 : (⟨4, ![1, 1, 128, 508]⟩ : Shape).ShapeCasts ⟨2, ![128, 508]⟩)
    (h2 : (⟨2, ![128, 508]⟩ : Shape).ShapeCasts ⟨3, ![1, 128, 508]⟩)
    (hb : (⟨3, ![1, 128, 508]⟩ : Shape).Broadcasts ⟨3, ![3, 128, 508]⟩)
    (hs : (⟨3, ![3, 132, 512]⟩ : Shape).Slices ![0, di, dj] ⟨3, ![3, 128, 508]⟩)
    (c : Fin 3) (r : Fin 128) (q : Fin 508) :
    mulf (broadcastTo ⟨3, ![3, 128, 508]⟩ (shapeCast ⟨3, ![1, 128, 508]⟩ (shapeCast ⟨2, ![128, 508]⟩ v h1) h2) hb)
        (extractStridedSlice ⟨3, ![3, 128, 508]⟩ ![0, di, dj] w hs) (ix3 c r q)
      = v (ix4 (0 : Fin 1) (0 : Fin 1) r q)
        * w (ix3 c ⟨r.val + di, by have := r.isLt; omega⟩ ⟨q.val + dj, by have := q.isLt; omega⟩) := by
  rw [mulf_apply]
  congr 1
  · refine (broadcastTo_apply _ hb (ix3 c r q) (ix3 (0 : Fin 1) r q) (fun a => ?_)).trans ?_
    · match a with
      | ⟨0, _⟩ => rfl
      | ⟨1, _⟩ => rfl
      | ⟨2, _⟩ => rfl
    refine (shapeCast_apply _ h2 (ix3 (0 : Fin 1) r q) (ix2 r q) ?_).trans ?_
    · rw [Shape.rowMajor_val_two, Shape.rowMajor_val_three]
      show r.val * 508 + q.val = (0 * 128 + r.val) * 508 + q.val
      omega
    refine shapeCast_apply _ h1 (ix2 r q) (ix4 (0 : Fin 1) (0 : Fin 1) r q) ?_
    rw [Shape.rowMajor_val_four, Shape.rowMajor_val_two]
    show ((0 * 1 + 0) * 128 + r.val) * 508 + q.val = r.val * 508 + q.val
    omega
  · exact extractStridedSlice_apply _ w hs (ix3 c r q) _ (fun a => match a with
      | ⟨0, _⟩ => by show c.val = 0 + c.val; omega
      | ⟨1, _⟩ => by show r.val + di = di + r.val; omega
      | ⟨2, _⟩ => by show q.val + dj = dj + q.val; omega)

end Cert.TapConv

end
-- ==== Proof.KernelBlock.lean ====
/-
  What one grid point leaves in its two output blocks, read at a position.

  At grid point `(b, hh)` the body holds the tap block `x0 : [1, 25, 128, 508]` (25 taps for 128 rows) and the whole input
  slab `x1 : [1, 3, 516, 512]` of batch entry `b`. It loads the 132 rows of the slab starting at row `128·hh` — the 128 rows
  of the tile and the 4 halo rows the taps reach into — and from then on only cuts that window at the 25 displacements
  `(di, dj)`, multiplies by the tap's weights copied across the three channels, and adds the products in tap order onto
  zero. So at block position `(c, r, q)` the first output block holds
      ((0 + x0[0,0,r,q]·x1[0,c,128hh+r,q]) + x0[0,1,r,q]·x1[0,c,128hh+r,q+1]) + … + x0[0,24,r,q]·x1[0,c,128hh+r+4,q+4],
  and the second, a lane reduction over the tap axis, holds `∑ₖ x0[0,k,r,q]`.
-/
import proofs.«113476_j29137058136307_1_alg».proof.Proof.Gen.KernelIdeal.Frame
import proofs.«113476_j29137058136307_1_alg».proof.Proof.Spec
import proofs.«113476_j29137058136307_1_alg».proof.Proof.Taps
import Idealize.ShloMosaic.Lib.Pipeline.Value
import Idealize.ShloMosaic.Lib.Tactic
import Idealize.ShloMosaic.PureOps.Ideal.Laws

set_option maxRecDepth 16384

noncomputable section

namespace Cert.KernelIdeal.Block

open Idealize.ShloMosaic Idealize.ShloMosaic.TcCoe Idealize.SL.Sem Idealize.ShloMosaic.Tactic
open Idealize.ShloMosaic.ValueIdx
open Cert.KernelIdeal Cert.KernelIdeal.Gen Cert.TapConv

theorem hz4 : (![0, 0, 0, 0] : Fin 4 → Nat) = fun _ => 0 := funext fun a => by fin_cases a <;> rfl

/-- The halo window starts at row `128·hh` of the slab, column 0: the 32-bit product `hh · 128` does not wrap for `hh < 4`. -/
theorem off1_eq (i : grid0.Coords) : k0_off1 i = ![0, 0, (i 1).val * 128, 0] := by
  have h : ∀ hh : Fin 4, (Scalar.indexCast (Scalar.muli (BitVec.ofNat 32 hh.val) 128#32)).toNat = hh.val * 128 := by decide
  show ![0, 0, (Scalar.indexCast (Scalar.muli (BitVec.ofNat 32 (i 1).val) 128#32)).toNat, 0] = _
  rw [h (i 1)]

/-- The last row a tap reaches stays inside the slab: `128·hh + 131 < 516`. -/
theorem row_lt (i : grid0.Coords) (R : Fin 132) : (i 1).val * 128 + R.val < 516 := by
  have h4 : (i 1).val < 4 := (i 1).isLt
  have := R.isLt
  omega

/-- The loaded window, with its unit batch axis dropped, read at `(c, R, Q)`: the slab at row `128·hh + R`. -/
theorem window_apply (i : grid0.Coords) (x1 : Vec Ideal S1x3x516x512 .f32) (ch : Fin 3) (R : Fin 132) (Q : Fin 512) :
    k0_pay2 (View.ld x1 (Rect.unit (k0_off1 i) S1x3x132x512.size (k0_off1_inb i))) (ix3 ch R Q)
      = x1 (ix4 (0 : Fin 1) ch ⟨(i 1).val * 128 + R.val, row_lt i R⟩ Q) := by
  unfold k0_pay2
  refine (shapeCast_apply _ _ (ix3 ch R Q) (ix4 (0 : Fin 1) ch R Q) ?_).trans ?_
  · rw [Shape.rowMajor_val_four, Shape.rowMajor_val_three]
    show ((0 * 3 + ch.val) * 132 + R.val) * 512 + Q.val = (ch.val * 132 + R.val) * 512 + Q.val
    omega
  show x1 _ = x1 _
  congr 1
  funext a
  apply Fin.ext
  have e := off1_eq i
  match a with
  | ⟨0, _⟩ => show k0_off1 i 0 + 1 * 0 = 0; rw [e]; rfl
  | ⟨1, _⟩ => show k0_off1 i 1 + 1 * ch.val = ch.val; rw [e]; show 0 + 1 * ch.val = ch.val; omega
  | ⟨2, _⟩ => show k0_off1 i 2 + 1 * R.val = (i 1).val * 128 + R.val; rw [e]; show (i 1).val * 128 + 1 * R.val = _; omega
  | ⟨3, _⟩ => show k0_off1 i 3 + 1 * Q.val = Q.val; rw [e]; show 0 + 1 * Q.val = Q.val; omega

/-- Tap `k`'s loaded weight slab read at `(0, 0, r, q)`: the tap block at `(0, k, r, q)`. -/
theorem slab_apply (x0 : Vec Ideal S1x25x128x508 .f32) (k : ℕ) (hk : k < 25)
    (inb : ∀ a, (![0, k, 0, 0] : Fin 4 → ℕ) a + S1x1x128x508.size a ≤ S1x25x128x508.size a) (r : Fin 128) (q : Fin 508) :
    View.ld x0 (Rect.unit ![0, k, 0, 0] S1x1x128x508.size inb) (ix4 (0 : Fin 1) (0 : Fin 1) r q)
      = x0 (ix4 (0 : Fin 1) ⟨k, hk⟩ r q) := by
  show x0 _ = x0 _
  congr 1
  funext a
  apply Fin.ext
  match a with
  | ⟨0, _⟩ => show 0 + 1 * 0 = 0; rfl
  | ⟨1, _⟩ => show k + 1 * 0 = k; omega
  | ⟨2, _⟩ => show 0 + 1 * r.val = r.val; omega
  | ⟨3, _⟩ => show 0 + 1 * q.val = q.val; omega

/-- One tap of the body at block position `(c, r, q)`, its weight slab the load of tap `k`: the tap block's weight at
    `(0, k, r, q)` times the window at the displaced position. -/
theorem tap_of_load_apply (x0 : Vec Ideal S1x25x128x508 .f32) (w : FVec Ideal S3x132x512 .f32)
    (k di dj : ℕ) (hk : k < 25) (hdi : di < 5) (hdj : dj < 5)
    (inb : ∀ a, (![0, k, 0, 0] : Fin 4 → ℕ) a + S1x1x128x508.size a ≤ S1x25x128x508.size a)
    (h1 : S1x1x128x508.ShapeCasts S128x508) (h2 : S128x508.ShapeCasts S1x128x508)
    (hb : S1x128x508.Broadcasts S3x128x508) (hs : S3x132x512.Slices ![0, di, dj] S3x128x508)
    (ch : Fin 3) (r : Fin 128) (q : Fin 508) :
    mulf (broadcastTo S3x128x508
          (shapeCast S1x128x508 (shapeCast S128x508 (View.ld x0 (Rect.unit ![0, k, 0, 0] S1x1x128x508.size inb)) h1) h2) hb)
        (extractStridedSlice S3x128x508 ![0, di, dj] w hs) (ix3 ch r q)
      = x0 (ix4 (0 : Fin 1) ⟨k, hk⟩ r q)
        * w (ix3 ch ⟨r.val + di, by have := r.isLt; omega⟩ ⟨q.val + dj, by have := q.isLt; omega⟩) :=
  (kernel_tap_apply _ w di dj hdi hdj h1 h2 hb hs ch r q).trans
    (congrArg (· * w (ix3 ch ⟨r.val + di, by have := r.isLt; omega⟩ ⟨q.val + dj, by have := q.isLt; omega⟩))
      (slab_apply x0 k hk inb r q))

/-- THE FIRST OUTPUT BLOCK at `(0, c, r, q)`: the 25 taps' products, tap `k` weighing the slab's pixel at row
    `128·hh + r + k / 5`, column `q + k % 5`, added in tap order onto the zero word. -/
theorem weighted_block_apply (c : Dev nD) (i : grid0.Coords)
    (a2 : Memref sig .tc .vmem S1x25x128x508 .f32) (h2 : a2.IsWhole) (a3 : Memref sig .tc .vmem S1x3x516x512 .f32) (h3 : a3.IsWhole)
    (a4 : Memref sig .tc .vmem S1x3x128x508 .f32) (h4 : a4.IsWhole) (a5 : Memref sig .tc .vmem S1x1x128x508 .f32) (h5 : a5.IsWhole)
    (x0 : Vec Ideal S1x25x128x508 .f32) (x1 : Vec Ideal S1x3x516x512 .f32) (ch : Fin 3) (r : Fin 128) (q : Fin 508) :
    out0_A_2 (F := Ideal) c i a2 h2 a3 h3 a4 h4 a5 h5 x0 x1 (ix4 (0 : Fin 1) ch r q)
      = chain25 (Ideal.ofBits .f32 0x00000000#32) (fun k hk =>
          x0 (ix4 (0 : Fin 1) ⟨k, hk⟩ r q)
            * x1 (ix4 (0 : Fin 1) ch
                ⟨(i 1).val * 128 + (r.val + k / 5), row_lt i ⟨r.val + k / 5, by have := r.isLt; omega⟩⟩
                ⟨q.val + k % 5, by have := q.isLt; omega⟩)) := by
  unfold out0_A_2
  rw [View.read_writes_eq_canon _ _ _ (cover0_A_2 c i a2 h2 a3 h3 a4 h4 a5 h5 x0 x1)]
  unfold kernelRun0_A
  dsimp only
  sl_unfold_run_names
  rw [View.canon_unit_zero hz4]
  simp only [View.readAt_eq_ld, h2.read_unread, h3.read_unread]
  unfold k0_pay10 k0_pay9 k0_pay8 k0_pay7 k0_pay6 k0_pay5 k0_pay4 k0_pay3
  dsimp only
  refine (shapeCast_apply _ _ (ix4 (0 : Fin 1) ch r q) (ix3 ch r q) ?_).trans ?_
  · rw [Shape.rowMajor_val_three, Shape.rowMajor_val_four]
    show (ch.val * 128 + r.val) * 508 + q.val = ((0 * 3 + ch.val) * 128 + r.val) * 508 + q.val
    omega
  simp (disch := decide) only [addf_apply, tap_of_load_apply, window_apply, broadcast_apply]
  rfl

/-- THE SECOND OUTPUT BLOCK at `(0, 0, r, q)`: the lane reduction over the tap axis is the sum of the 25 taps' weights
    there (the reduction's neutral accumulator adds nothing). -/
theorem tapsum_block_apply (c : Dev nD) (i : grid0.Coords)
    (a2 : Memref sig .tc .vmem S1x25x128x508 .f32) (h2 : a2.IsWhole) (a3 : Memref sig .tc .vmem S1x3x516x512 .f32) (h3 : a3.IsWhole)
    (a4 : Memref sig .tc .vmem S1x3x128x508 .f32) (h4 : a4.IsWhole) (a5 : Memref sig .tc .vmem S1x1x128x508 .f32) (h5 : a5.IsWhole)
    (x0 : Vec Ideal S1x25x128x508 .f32) (x1 : Vec Ideal S1x3x516x512 .f32) (r : Fin 128) (q : Fin 508) :
    out0_A_3 (F := Ideal) c i a2 h2 a3 h3 a4 h4 a5 h5 x0 x1 (ix4 (0 : Fin 1) (0 : Fin 1) r q)
      = ∑ k : Fin 25, x0 (ix4 (0 : Fin 1) k r q) := by
  unfold out0_A_3
  rw [View.read_writes_eq_canon _ _ _ (cover0_A_3 c i a2 h2 a3 h3 a4 h4 a5 h5 x0 x1)]
  unfold kernelRun0_A
  dsimp only
  sl_unfold_run_names
  rw [View.canon_unit_zero hz4]
  simp only [View.readAt_eq_ld, h2.read_unread, View.ld_unit_zero (S := S1x25x128x508) hz4]
  unfold k0_pay1
  dsimp only
  refine (shapeCast_apply _ _ (ix4 (0 : Fin 1) (0 : Fin 1) r q) (ix2 r q) ?_).trans ?_
  · rw [Shape.rowMajor_val_two, Shape.rowMajor_val_four]
    show r.val * 508 + q.val = ((0 * 1 + 0) * 128 + r.val) * 508 + q.val
    omega
  refine (Ideal.multiReduction_add_single _ 0x00000000#32 reduces_S25x128x508_S128x508 (.inl rfl) rfl (ix2 r q)).trans ?_
  refine Finset.sum_congr rfl fun k _ => ?_
  refine shapeCast_apply _ _ _ (ix4 (0 : Fin 1) k r q) ?_
  rw [Shape.rowMajor_val_four, Shape.rowMajor_val_three]
  show ((0 * 25 + k.val) * 128 + r.val) * 508 + q.val = (k.val * 128 + r.val) * 508 + q.val
  omega

end Cert.KernelIdeal.Block

end
-- ==== Proof.KernelArray.lean ====
/-
  From the blocks to the arrays the kernel program returns.

  Grid point `t = (b, hh)` reads tap block `(b, ·, hh, ·)` of the padded kernel tensor (rows `128·hh … 128·hh + 127`) and the
  whole slab `b` of the padded input, and writes block `(b, ·, hh, ·)` of each padded output. The 8 × 4 points' blocks tile
  the padded outputs, so after the run the first holds the filtered image of the PADDED arrays at every position and the
  second their tap sums. The program then keeps rows `0 … 507` of each. At such a row the taps read rows `≤ 511` of the
  input and row `≤ 507` of the kernel tensor, where the zero-padded arrays are the arrays as given: the padding rows are
  never read, so the results are the filtered image and the tap sums of the arguments themselves.
-/
import proofs.«113476_j29137058136307_1_alg».proof.Proof.Gen.KernelIdeal.Frame
import proofs.«113476_j29137058136307_1_alg».proof.Proof.KernelBlock
import Idealize.ShloMosaic.Lib.Pipeline.Value
import Idealize.ShloMosaic.Lib.KernelVsHost
import Idealize.ShloMosaic.Lib.StableHlo.Run

set_option maxRecDepth 16384

noncomputable section

namespace Cert.KernelIdeal.ArrayValue

open Idealize.ShloMosaic Idealize.ShloMosaic.TcCoe Idealize.SL.Sem
open Idealize.ShloMosaic.ValueIdx
open Idealize.ShloMosaic.Pipeline (Dat)
open Cert.KernelIdeal Cert.KernelIdeal.Gen Cert.TapConv Cert.KernelIdeal.Block

variable (m : (ℓ : Loc nD τ sig) → Buf (Elt Ideal) ℓ) (ρ : Dev nD → PrngReg)

/-- The batch entry and the row tile of grid point `t`. -/
def bOf (t : Fin cfg0.N) : Fin 8 := ⟨(grid0.coords t 0).val, (grid0.coords t 0).isLt⟩
def hOf (t : Fin cfg0.N) : Fin 4 := ⟨(grid0.coords t 1).val, (grid0.coords t 1).isLt⟩

/-- The printed index maps, decided over the 32 grid points: every window's block index is `(b, 0, hh, 0)`, except the
    input slab's, which is `(b, 0, 0, 0)`. -/
theorem idx_facts : ∀ t : Fin cfg0.N,
    (win0_0.index t (0 : Fin 4) = (bOf t).val ∧ win0_0.index t (1 : Fin 4) = 0 ∧ win0_0.index t (2 : Fin 4) = (hOf t).val ∧ win0_0.index t (3 : Fin 4) = 0)
    ∧ (win0_1.index t (0 : Fin 4) = (bOf t).val ∧ win0_1.index t (1 : Fin 4) = 0 ∧ win0_1.index t (2 : Fin 4) = 0 ∧ win0_1.index t (3 : Fin 4) = 0)
    ∧ (win0_2.index t (0 : Fin 4) = (bOf t).val ∧ win0_2.index t (1 : Fin 4) = 0 ∧ win0_2.index t (2 : Fin 4) = (hOf t).val ∧ win0_2.index t (3 : Fin 4) = 0)
    ∧ (win0_3.index t (0 : Fin 4) = (bOf t).val ∧ win0_3.index t (1 : Fin 4) = 0 ∧ win0_3.index t (2 : Fin 4) = (hOf t).val ∧ win0_3.index t (3 : Fin 4) = 0) :=
  (by decide +kernel : ∀ t : Fin grid0.N, _)

/-- Every `(b, hh)` is some grid point's. -/
theorem idx_onto : ∀ (b : Fin 8) (hh : Fin 4), ∃ t : Fin cfg0.N, bOf t = b ∧ hOf t = hh :=
  (by decide +kernel : ∀ (b : Fin 8) (hh : Fin 4), ∃ t : Fin grid0.N, bOf t = b ∧ hOf t = hh)

/-- The row `128·hh + r` of a tile is a row of the padded arrays. -/
theorem tile_row_lt (t : Fin cfg0.N) (r : Fin 128) : (hOf t).val * 128 + r.val < 512 := by
  have := (hOf t).isLt; have := r.isLt; omega

/-- The tap block of point `t` at `(0, k, r, q)` is the padded kernel tensor at `(b, k, 128·hh + r, q)`. -/
theorem tapblock_apply (c : Dev nD) (t : Fin cfg0.N) (k : Fin 25) (r : Fin 128) (q : Fin 508) :
    (iblk m c 0 t : Vec Ideal S1x25x128x508 .f32) (ix4 (0 : Fin 1) k r q)
      = (V m c main_v0 : Vec Ideal S8x25x512x508 .f32) (ix4 (bOf t) k ⟨(hOf t).val * 128 + r.val, tile_row_lt t r⟩ q) := by
  obtain ⟨⟨e0, e1, e2, e3⟩, -⟩ := idx_facts t
  show V m c main_v0 (((cfg0.win 0).blk t).view.emb (ix4 (0 : Fin 1) k r q)) = _
  refine congrArg (V m c main_v0) ?_
  funext a
  apply Fin.ext
  match a with
  | ⟨0, _⟩ => show win0_0.index t (0 : Fin 4) * 1 + 1 * 0 = (bOf t).val; omega
  | ⟨1, _⟩ => show win0_0.index t (1 : Fin 4) * 25 + 1 * k.val = k.val; omega
  | ⟨2, _⟩ => show win0_0.index t (2 : Fin 4) * 128 + 1 * r.val = (hOf t).val * 128 + r.val; omega
  | ⟨3, _⟩ => show win0_0.index t (3 : Fin 4) * 508 + 1 * q.val = q.val; omega

/-- The input slab of point `t` at `(0, c, R, Q)` is the padded input at `(b, c, R, Q)`. -/
theorem slab_block_apply (c : Dev nD) (t : Fin cfg0.N) (ch : Fin 3) (R : Fin 516) (Q : Fin 512) :
    (iblk m c 1 t : Vec Ideal S1x3x516x512 .f32) (ix4 (0 : Fin 1) ch R Q)
      = (V m c main_v1 : Vec Ideal S8x3x516x512 .f32) (ix4 (bOf t) ch R Q) := by
  obtain ⟨-, ⟨e0, e1, e2, e3⟩, -⟩ := idx_facts t
  show V m c main_v1 (((cfg0.win 1).blk t).view.emb (ix4 (0 : Fin 1) ch R Q)) = _
  refine congrArg (V m c main_v1) ?_
  funext a
  apply Fin.ext
  match a with
  | ⟨0, _⟩ => show win0_1.index t (0 : Fin 4) * 1 + 1 * 0 = (bOf t).val; omega
  | ⟨1, _⟩ => show win0_1.index t (1 : Fin 4) * 3 + 1 * ch.val = ch.val; omega
  | ⟨2, _⟩ => show win0_1.index t (2 : Fin 4) * 516 + 1 * R.val = R.val; omega
  | ⟨3, _⟩ => show win0_1.index t (3 : Fin 4) * 512 + 1 * Q.val = Q.val; omega

/-- The padded kernel tensor and the padded input as the region finds them. -/
abbrev Kp (c : Dev nD) : Vec Ideal S8x25x512x508 .f32 := V m c main_v0
abbrev Tp (c : Dev nD) : Vec Ideal S8x3x516x512 .f32 := V m c main_v1

theorem h512 : 512 + 4 ≤ 516 := by decide
theorem h508 : 508 + 4 ≤ 512 := by decide

/-- Where block position `(0, c, r, q)` of point `t`'s first output block lies in the padded output. -/
theorem emb2 (t : Fin cfg0.N) (ch : Fin 3) (r : Fin 128) (q : Fin 508) :
    ((cfg0.win 2).blk t).view.emb (ix4 (0 : Fin 1) ch r q)
      = (ix4 (bOf t) ch ⟨(hOf t).val * 128 + r.val, tile_row_lt t r⟩ q : S8x3x512x508.Idx) := by
  obtain ⟨-, -, ⟨e0, e1, e2, e3⟩, -⟩ := idx_facts t
  funext a
  apply Fin.ext
  match a with
  | ⟨0, _⟩ => show win0_2.index t (0 : Fin 4) * 1 + 1 * 0 = (bOf t).val; omega
  | ⟨1, _⟩ => show win0_2.index t (1 : Fin 4) * 3 + 1 * ch.val = ch.val; omega
  | ⟨2, _⟩ => show win0_2.index t (2 : Fin 4) * 128 + 1 * r.val = (hOf t).val * 128 + r.val; omega
  | ⟨3, _⟩ => show win0_2.index t (3 : Fin 4) * 508 + 1 * q.val = q.val; omega

/-- and of its second output block. -/
theorem emb3 (t : Fin cfg0.N) (r : Fin 128) (q : Fin 508) :
    ((cfg0.win 3).blk t).view.emb (ix4 (0 : Fin 1) (0 : Fin 1) r q)
      = (ix4 (bOf t) (0 : Fin 1) ⟨(hOf t).val * 128 + r.val, tile_row_lt t r⟩ q : S8x1x512x508.Idx) := by
  obtain ⟨-, -, -, ⟨e0, e1, e2, e3⟩⟩ := idx_facts t
  funext a
  apply Fin.ext
  match a with
  | ⟨0, _⟩ => show win0_3.index t (0 : Fin 4) * 1 + 1 * 0 = (bOf t).val; omega
  | ⟨1, _⟩ => show win0_3.index t (1 : Fin 4) * 1 + 1 * 0 = 0; omega
  | ⟨2, _⟩ => show win0_3.index t (2 : Fin 4) * 128 + 1 * r.val = (hOf t).val * 128 + r.val; omega
  | ⟨3, _⟩ => show win0_3.index t (3 : Fin 4) * 508 + 1 * q.val = q.val; omega

/-- WHAT POINT `t` WRITES BACK to the first output is block `t` of the filtered image of the padded arrays. -/
theorem flushed2_eq (c : Dev nD) (t : Fin cfg0.N) :
    (dats m 0 c).flushed 2 t
      = ((cfg0.win 2).blk t).view.read (Elt Ideal) (weighted h512 (Kp m c) (Tp m c)) := by
  show (cfg0.win 2).cut (grid0.coords t) ((dats m 0 c).after 2 t) = _
  rw [after0_2]
  unfold outsAt0
  dsimp only
  funext y
  have y0 : (y 0).val < 1 := (y 0).isLt
  obtain ⟨ch, r, q, rfl⟩ : ∃ (ch : Fin 3) (r : Fin 128) (q : Fin 508), y = ix4 (0 : Fin 1) ch r q :=
    ⟨y 1, y 2, y 3, funext fun a => match a with
      | ⟨0, _⟩ => Fin.ext (by show (y 0).val = 0; omega)
      | ⟨1, _⟩ => rfl
      | ⟨2, _⟩ => rfl
      | ⟨3, _⟩ => rfl⟩
  refine (weighted_block_apply c (grid0.coords t) (ms0_0 t) (hs0_0 t) (ms0_1 t) (hs0_1 t) (ms0_2 t) (hs0_2 t) (ms0_3 t) (hs0_3 t)
      (iblk m c 0 t) (iblk m c 1 t) ch r q).trans ?_
  show _ = weighted h512 (Kp m c) (Tp m c) (((cfg0.win 2).blk t).view.emb (ix4 (0 : Fin 1) ch r q))
  rw [emb2 t ch r q]
  unfold weighted
  refine chain25_congr _ _ _ fun k hk => ?_
  unfold tap
  have e1 := tapblock_apply m c t ⟨k, hk⟩ r q
  have e2 := slab_block_apply m c t ch
    ⟨(grid0.coords t 1).val * 128 + (r.val + k / 5), row_lt (grid0.coords t) ⟨r.val + k / 5, by have := r.isLt; omega⟩⟩
    ⟨q.val + k % 5, by have := q.isLt; omega⟩
  rw [e1, e2]
  refine congrArg (fun x => Kp m c (ix4 (bOf t) ⟨k, hk⟩ ⟨(hOf t).val * 128 + r.val, tile_row_lt t r⟩ q) * Tp m c x) ?_
  funext a
  match a with
  | ⟨0, _⟩ => rfl
  | ⟨1, _⟩ => rfl
  | ⟨2, _⟩ => exact Fin.ext (by show (grid0.coords t 1).val * 128 + (r.val + k / 5) = (grid0.coords t 1).val * 128 + r.val + k / 5; omega)
  | ⟨3, _⟩ => rfl

/-- WHAT POINT `t` WRITES BACK to the second output is block `t` of the padded kernel tensor's tap sums. -/
theorem flushed3_eq (c : Dev nD) (t : Fin cfg0.N) :
    (dats m 0 c).flushed 3 t = ((cfg0.win 3).blk t).view.read (Elt Ideal) (tapsum (Kp m c)) := by
  show (cfg0.win 3).cut (grid0.coords t) ((dats m 0 c).after 3 t) = _
  rw [after0_3]
  unfold outsAt0
  dsimp only
  funext y
  have y0 : (y 0).val < 1 := (y 0).isLt
  have y1 : (y 1).val < 1 := (y 1).isLt
  obtain ⟨r, q, rfl⟩ : ∃ (r : Fin 128) (q : Fin 508), y = ix4 (0 : Fin 1) (0 : Fin 1) r q :=
    ⟨y 2, y 3, funext fun a => match a with
      | ⟨0, _⟩ => Fin.ext (by show (y 0).val = 0; omega)
      | ⟨1, _⟩ => Fin.ext (by show (y 1).val = 0; omega)
      | ⟨2, _⟩ => rfl
      | ⟨3, _⟩ => rfl⟩
  refine (tapsum_block_apply c (grid0.coords t) (ms0_0 t) (hs0_0 t) (ms0_1 t) (hs0_1 t) (ms0_2 t) (hs0_2 t) (ms0_3 t) (hs0_3 t)
      (iblk m c 0 t) (iblk m c 1 t) r q).trans ?_
  show _ = tapsum (Kp m c) (((cfg0.win 3).blk t).view.emb (ix4 (0 : Fin 1) (0 : Fin 1) r q))
  rw [emb3 t r q]
  unfold tapsum
  exact Finset.sum_congr rfl fun k _ => tapblock_apply m c t k r q

/-- An index of a padded output is in point `t`'s block iff each coordinate is in the block's range on its axis. -/
theorem mem_blk2 (t : Fin cfg0.N) (i : S8x3x512x508.Idx) :
    i ∈ ((cfg0.win 2).blk t).view.set ↔ ∀ a : Fin 4, win0_2.index t a * S1x3x128x508.size a ≤ (i a).val
      ∧ (i a).val < win0_2.index t a * S1x3x128x508.size a + S1x3x128x508.size a := by
  show i ∈ ((View.whole main_v2_0).slice (win0_2.rect t)).set ↔ _
  rw [View.set_slice_whole, Rect.mem_set_unit]
  exact Iff.rfl

theorem mem_blk3 (t : Fin cfg0.N) (i : S8x1x512x508.Idx) :
    i ∈ ((cfg0.win 3).blk t).view.set ↔ ∀ a : Fin 4, win0_3.index t a * S1x1x128x508.size a ≤ (i a).val
      ∧ (i a).val < win0_3.index t a * S1x1x128x508.size a + S1x1x128x508.size a := by
  show i ∈ ((View.whole main_v2_1).slice (win0_3.rect t)).set ↔ _
  rw [View.set_slice_whole, Rect.mem_set_unit]
  exact Iff.rfl

/-- The 8 × 4 blocks tile the first padded output: position `(b, c, i, j)` is in the block of point `(b, i / 128)`. -/
theorem cover2 (i : S8x3x512x508.Idx) :
    ∃ t : Fin cfg0.N, (cfg0.win 2).flush t = true ∧ i ∈ ((cfg0.win 2).blk t).view.set := by
  have hi0 : (i 0).val < 8 := (i 0).isLt
  have hi1 : (i 1).val < 3 := (i 1).isLt
  have hi2 : (i 2).val < 512 := (i 2).isLt
  have hi3 : (i 3).val < 508 := (i 3).isLt
  obtain ⟨t, hb, hh⟩ := idx_onto ⟨(i 0).val, hi0⟩ ⟨(i 2).val / 128, by omega⟩
  obtain ⟨-, -, ⟨e0, e1, e2, e3⟩, -⟩ := idx_facts t
  have hb' : (bOf t).val = (i 0).val := congrArg Fin.val hb
  have hh' : (hOf t).val = (i 2).val / 128 := congrArg Fin.val hh
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 128 ≤ (i 2).val ∧ (i 2).val < win0_2.index t (2 : Fin 4) * 128 + 128; omega
  | ⟨3, _⟩ => show win0_2.index t (3 : Fin 4) * 508 ≤ (i 3).val ∧ (i 3).val < win0_2.index t (3 : Fin 4) * 508 + 508; omega

/-- and the second. -/
theorem cover3 (i : S8x1x512x508.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 512 := (i 2).isLt
  have hi3 : (i 3).val < 508 := (i 3).isLt
  obtain ⟨t, hb, hh⟩ := idx_onto ⟨(i 0).val, hi0⟩ ⟨(i 2).val / 128, by omega⟩
  obtain ⟨-, -, -, ⟨e0, e1, e2, e3⟩⟩ := idx_facts t
  have hb' : (bOf t).val = (i 0).val := congrArg Fin.val hb
  have hh' : (hOf t).val = (i 2).val / 128 := congrArg Fin.val hh
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 128 ≤ (i 2).val ∧ (i 2).val < win0_3.index t (2 : Fin 4) * 128 + 128; omega
  | ⟨3, _⟩ => show win0_3.index t (3 : Fin 4) * 508 ≤ (i 3).val ∧ (i 3).val < win0_3.index t (3 : Fin 4) * 508 + 508; omega

/-- THE PADDED OUTPUTS after the run: the filtered image and the tap sums of the padded arrays, everywhere. -/
theorem final2 (c : Dev nD) : (dats m 0 c).arrAt 2 cfg0.N = weighted h512 (Kp m c) (Tp m c) :=
  (dats m 0 c).arrAt_eq_of_cover 2 (weighted h512 (Kp m c) (Tp m c)) (fun t _ => flushed2_eq m c t) cover2

theorem final3 (c : Dev nD) : (dats m 0 c).arrAt 3 cfg0.N = tapsum (Kp m c) :=
  (dats m 0 c).arrAt_eq_of_cover 3 (tapsum (Kp m c)) (fun t _ => flushed3_eq m c t) cover3

/-! ## The padding rows are never read -/

/-- The region finds the kernel tensor with four rows appended (whatever they hold), -/
theorem Kp_eq (c : Dev nD) : Kp m c
    = pad S8x25x512x508 ![0, 0, 0, 0] ![0, 0, 4, 0] ![0, 0, 0, 0] (m ((c : Thread nD τ).loc main_arg0))
        (sitofp (F := Ideal) .f32 (constantI S_ 32 0#32)) pads_S8x25x508x508_S8x25x512x508_000_000_040_000 h_S_ := by
  show V m c main_v0 = _
  dsimp only [V, V0]
  simp only [hostOps0, hostOps0_1, hostOps0_2, hostOps0_3, List.flatten_cons, List.flatten_nil, List.append_nil,
    List.cons_append, List.nil_append]
  after_results
  simp only [StableHlo.TRef.ofBuf, StableHlo.TRef.toBuf, cast_eq]

/-- and the input likewise. -/
theorem Tp_eq (c : Dev nD) : Tp m c
    = pad S8x3x516x512 ![0, 0, 0, 0] ![0, 0, 4, 0] ![0, 0, 0, 0] (m ((c : Thread nD τ).loc main_arg1))
        (sitofp (F := Ideal) .f32 (constantI S_ 32 0#32)) pads_S8x3x512x512_S8x3x516x512_000_000_040_000 h_S_ := by
  show V m c main_v1 = _
  dsimp only [V, V0]
  simp only [hostOps0, hostOps0_1, hostOps0_2, hostOps0_3, List.flatten_cons, List.flatten_nil, List.append_nil,
    List.cons_append, List.nil_append]
  after_results
  simp only [StableHlo.TRef.ofBuf, StableHlo.TRef.toBuf, cast_eq]

/-- At a row below 508 the padded kernel tensor is the kernel tensor. -/
theorem Kp_apply (c : Dev nD) (b : Fin 8) (k : Fin 25) (i j : Fin 508) :
    Kp m c (ix4 b k ⟨i.val, by have := i.isLt; omega⟩ j) = m ((c : Thread nD τ).loc main_arg0) (ix4 b k i j) := by
  rw [Kp_eq]
  exact pad_apply_of_inside _ _ _ _ _ _ _ (ix4 b k (⟨i.val, by have := i.isLt; omega⟩ : Fin 512) j) (ix4 b k i j) (fun a => match a with
    | ⟨0, _⟩ => by show b.val = 0 + b.val * (0 + 1); omega
    | ⟨1, _⟩ => by show k.val = 0 + k.val * (0 + 1); omega
    | ⟨2, _⟩ => by show i.val = 0 + i.val * (0 + 1); omega
    | ⟨3, _⟩ => by show j.val = 0 + j.val * (0 + 1); omega)

/-- At a row below 512 the padded input is the input. -/
theorem Tp_apply (c : Dev nD) (b : Fin 8) (ch : Fin 3) (i j : Fin 512) :
    Tp m c (ix4 b ch ⟨i.val, by have := i.isLt; omega⟩ j) = m ((c : Thread nD τ).loc main_arg1) (ix4 b ch i j) := by
  rw [Tp_eq]
  exact pad_apply_of_inside _ _ _ _ _ _ _ (ix4 b ch (⟨i.val, by have := i.isLt; omega⟩ : Fin 516) j) (ix4 b ch i j) (fun a => match a with
    | ⟨0, _⟩ => by show b.val = 0 + b.val * (0 + 1); omega
    | ⟨1, _⟩ => by show ch.val = 0 + ch.val * (0 + 1); omega
    | ⟨2, _⟩ => by show i.val = 0 + i.val * (0 + 1); omega
    | ⟨3, _⟩ => by show j.val = 0 + j.val * (0 + 1); omega)

/-! ## The two results -/

/-- THE FIRST RESULT: rows `0 … 507` of the padded filtered image. A tap at such a row reads the kernel tensor at that row
    and the input at a row `≤ 511`: the filtered image of the arguments as given. -/
theorem result0 (c : Dev nD) :
    Pipeline.afterTail₀ cfgs (dats m) 0 (V0 m) [hostOps1] c main_v3
      = weighted h508 (m ((c : Thread nD τ).loc main_arg0)) (m ((c : Thread nD τ).loc main_arg1)) := by
  unfold Pipeline.afterTail₀
  show StableHlo.after hostOps1 _ (Proc.devRef .tc main_v3) = _
  after_results
  refine (congrArg (fun x => extractStridedSlice S8x3x508x508 ![0, 0, 0, 0] x slices_S8x3x512x508_S8x3x508x508_0_0_0_0)
    ((Pipeline.withArrays_arr spec0 launch0.win.arr_inj c (V0 m c) (fun w => (dats m 0 c).arrAt w (cfgs 0).N) 2).trans (final2 m c))).trans ?_
  funext y
  obtain ⟨b, ch, i, j, rfl⟩ : ∃ (b : Fin 8) (ch : Fin 3) (i j : Fin 508), y = ix4 b ch i j := ⟨y 0, y 1, y 2, y 3, eq_ix4 y⟩
  refine (extractStridedSlice_apply _ _ _ (ix4 b ch i j) (ix4 b ch (⟨i.val, by have := i.isLt; omega⟩ : Fin 512) j) (fun a => match a with
    | ⟨0, _⟩ => by show b.val = 0 + b.val; omega
    | ⟨1, _⟩ => by show ch.val = 0 + ch.val; omega
    | ⟨2, _⟩ => by show i.val = 0 + i.val; omega
    | ⟨3, _⟩ => by show j.val = 0 + j.val; omega)).trans ?_
  unfold weighted
  refine chain25_congr _ _ _ fun k hk => ?_
  unfold tap
  have e1 := Kp_apply m c b ⟨k, hk⟩ i j
  have e2 := Tp_apply m c b ch ⟨i.val + k / 5, by have := i.isLt; omega⟩ ⟨j.val + k % 5, by have := j.isLt; omega⟩
  exact congr (congrArg HMul.hMul e1) e2

/-- THE SECOND RESULT: rows `0 … 507` of the padded tap sums, where the padded kernel tensor is the kernel tensor. -/
theorem result1 (c : Dev nD) :
    Pipeline.afterTail₀ cfgs (dats m) 0 (V0 m) [hostOps1] c main_v4 = tapsum (m ((c : Thread nD τ).loc main_arg0)) := by
  unfold Pipeline.afterTail₀
  show StableHlo.after hostOps1 _ (Proc.devRef .tc main_v4) = _
  after_results
  refine (congrArg (fun x => extractStridedSlice S8x1x508x508 ![0, 0, 0, 0] x slices_S8x1x512x508_S8x1x508x508_0_0_0_0)
    ((Pipeline.withArrays_arr spec0 launch0.win.arr_inj c (V0 m c) (fun w => (dats m 0 c).arrAt w (cfgs 0).N) 3).trans (final3 m c))).trans ?_
  funext y
  obtain ⟨b, u, i, j, rfl⟩ : ∃ (b : Fin 8) (u : Fin 1) (i j : Fin 508), y = ix4 b u i j := ⟨y 0, y 1, y 2, y 3, eq_ix4 y⟩
  refine (extractStridedSlice_apply _ _ _ (ix4 b u i j) (ix4 b u (⟨i.val, by have := i.isLt; omega⟩ : Fin 512) j) (fun a => match a with
    | ⟨0, _⟩ => by show b.val = 0 + b.val; omega
    | ⟨1, _⟩ => by show u.val = 0 + u.val; omega
    | ⟨2, _⟩ => by show i.val = 0 + i.val; omega
    | ⟨3, _⟩ => by show j.val = 0 + j.val; omega)).trans ?_
  unfold tapsum
  show @Eq (Ideal .f32) _ _
  exact Finset.sum_congr rfl fun k _ => Kp_apply m c b k i j

/-! ## The run, read -/

/-- Every weakly fair execution of the kernel program terminates without a fault, its results the filtered image and the
    tap sums of its arguments, the arguments unchanged. -/
theorem run : θ_run defs (onTc (τ := τ) (main (F := Ideal))) ⟨m, fun _ => 0, ρ⟩ fun r => ∀ c : Dev nD,
      r.2.mem ((c.tc : Thread nD τ).loc main_v3)
          = weighted h508 (m ((c.tc : Thread nD τ).loc main_arg0)) (m ((c.tc : Thread nD τ).loc main_arg1))
      ∧ r.2.mem ((c.tc : Thread nD τ).loc main_v4) = tapsum (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result0 m c),
     ((h c).2 main_v4 (Pipeline.mem_restRefs_of main_v4 (by decide) (by decide))).trans (result1 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.ArrayValue

end
-- ==== Proof.RefOps.lean ====
/-
  The reference program as a list of operations.

  @main of the reference is a straight line of 180 host operations and a return, printed in four windows. Each window
  is the sequential program of its own list of operations; @main is the sequential program of the four lists one after
  the other; every operation touches whole TensorCore buffers only and determines its results. So every weakly fair
  execution terminates, and each buffer ends holding what the operations, applied in order to the launch contents,
  leave in it: the fold `after`, taken window by window.
-/
import proofs.«113476_j29137058136307_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 of 180 (window `main_part0`). -/
abbrev ops0 : List (HloOp τ sig (Elt F)) :=
  [ nullary main_cst (constant S_ .f32 0x00000000#32),
    unary main_cst main_v0 (broadcastInDim S8x3x508x508 ![] bcast_S_S8x3x508x508 : (⟨S_, .f32⟩ : BufTy).Contents (Elt F) → (⟨S8x3x508x508, .f32⟩ : BufTy).Contents (Elt F)),
    unary main_arg0 main_v1 ((extractStridedSlice S8x1x508x508 ![0, 0, 0, 0] · slices_S8x25x508x508_S8x1x508x508_0_0_0_0) : (⟨S8x25x508x508, .f32⟩ : BufTy).Contents (Elt F) → (⟨S8x1x508x508, .f32⟩ : BufTy).Contents (Elt F)),
    reshape main_v1 main_v2 rfl shapeCasts_S8x1x508x508_S8x508x508,
    unary main_v2 main_v3 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v4 ((extractStridedSlice S8x3x508x508 ![0, 0, 0, 0] · slices_S8x3x512x512_S8x3x508x508_0_0_0_0) : (⟨S8x3x512x512, .f32⟩ : BufTy).Contents (Elt F) → (⟨S8x3x508x508, .f32⟩ : BufTy).Contents (Elt F)),
    unary main_v3 main_v5 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v5 main_v4 main_v6 (mulf : (⟨S8x3x508x508, .f32⟩ : BufTy).Contents (Elt F) → (⟨S8x3x508x508, .f32⟩ : BufTy).Contents (Elt F) → (⟨S8x3x508x508, .f32⟩ : BufTy).Contents (Elt F)),
    binary main_v0 main_v6 main_v7 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v8 ((extractStridedSlice S8x1x508x508 ![0, 1, 0, 0] · slices_S8x25x508x508_S8x1x508x508_0_1_0_0) : (⟨S8x25x508x508, .f32⟩ : BufTy).Contents (Elt F) → (⟨S8x1x508x508, .f32⟩ : BufTy).Contents (Elt F)),
    reshape main_v8 main_v9 rfl shapeCasts_S8x1x508x508_S8x508x508,
    unary main_v9 main_v10 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v11 ((extractStridedSlice S8x3x508x508 ![0, 0, 0, 1] · slices_S8x3x512x512_S8x3x508x508_0_0_0_1) : (⟨S8x3x512x512, .f32⟩ : BufTy).Contents (Elt F) → (⟨S8x3x508x508, .f32⟩ : BufTy).Contents (Elt F)),
    unary main_v10 main_v12 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v12 main_v11 main_v13 (mulf : (⟨S8x3x508x508, .f32⟩ : BufTy).Contents (Elt F) → (⟨S8x3x508x508, .f32⟩ : BufTy).Contents (Elt F) → (⟨S8x3x508x508, .f32⟩ : BufTy).Contents (Elt F)),
    binary main_v7 main_v13 main_v14 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v15 ((extractStridedSlice S8x1x508x508 ![0, 2, 0, 0] · slices_S8x25x508x508_S8x1x508x508_0_2_0_0) : (⟨S8x25x508x508, .f32⟩ : BufTy).Contents (Elt F) → (⟨S8x1x508x508, .f32⟩ : BufTy).Contents (Elt F)),
    reshape main_v15 main_v16 rfl shapeCasts_S8x1x508x508_S8x508x508,
    unary main_v16 main_v17 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v18 ((extractStridedSlice S8x3x508x508 ![0, 0, 0, 2] · slices_S8x3x512x512_S8x3x508x508_0_0_0_2) : (⟨S8x3x512x512, .f32⟩ : BufTy).Contents (Elt F) → (⟨S8x3x508x508, .f32⟩ : BufTy).Contents (Elt F)),
    unary main_v17 main_v19 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v19 main_v18 main_v20 (mulf : (⟨S8x3x508x508, .f32⟩ : BufTy).Contents (Elt F) → (⟨S8x3x508x508, .f32⟩ : BufTy).Contents (Elt F) → (⟨S8x3x508x508, .f32⟩ : BufTy).Contents (Elt F)),
    binary main_v14 main_v20 main_v21 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v22 ((extractStridedSlice S8x1x508x508 ![0, 3, 0, 0] · slices_S8x25x508x508_S8x1x508x508_0_3_0_0) : (⟨S8x25x508x508, .f32⟩ : BufTy).Contents (Elt F) → (⟨S8x1x508x508, .f32⟩ : BufTy).Contents (Elt F)),
    reshape main_v22 main_v23 rfl shapeCasts_S8x1x508x508_S8x508x508,
    unary main_v23 main_v24 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v25 ((extractStridedSlice S8x3x508x508 ![0, 0, 0, 3] · slices_S8x3x512x512_S8x3x508x508_0_0_0_3) : (⟨S8x3x512x512, .f32⟩ : BufTy).Contents (Elt F) → (⟨S8x3x508x508, .f32⟩ : BufTy).Contents (Elt F)),
    unary main_v24 main_v26 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v26 main_v25 main_v27 (mulf : (⟨S8x3x508x508, .f32⟩ : BufTy).Contents (Elt F) → (⟨S8x3x508x508, .f32⟩ : BufTy).Contents (Elt F) → (⟨S8x3x508x508, .f32⟩ : BufTy).Contents (Elt F)),
    binary main_v21 main_v27 main_v28 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v29 ((extractStridedSlice S8x1x508x508 ![0, 4, 0, 0] · slices_S8x25x508x508_S8x1x508x508_0_4_0_0) : (⟨S8x25x508x508, .f32⟩ : BufTy).Contents (Elt F) → (⟨S8x1x508x508, .f32⟩ : BufTy).Contents (Elt F)),
    reshape main_v29 main_v30 rfl shapeCasts_S8x1x508x508_S8x508x508,
    unary main_v30 main_v31 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v32 ((extractStridedSlice S8x3x508x508 ![0, 0, 0, 4] · slices_S8x3x512x512_S8x3x508x508_0_0_0_4) : (⟨S8x3x512x512, .f32⟩ : BufTy).Contents (Elt F) → (⟨S8x3x508x508, .f32⟩ : BufTy).Contents (Elt F)),
    unary main_v31 main_v33 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v33 main_v32 main_v34 (mulf : (⟨S8x3x508x508, .f32⟩ : BufTy).Contents (Elt F) → (⟨S8x3x508x508, .f32⟩ : BufTy).Contents (Elt F) → (⟨S8x3x508x508, .f32⟩ : BufTy).Contents (Elt F)),
    binary main_v28 main_v34 main_v35 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v36 ((extractStridedSlice S8x1x508x508 ![0, 5, 0, 0] · slices_S8x25x508x508_S8x1x508x508_0_5_0_0) : (⟨S8x25x508x508, .f32⟩ : BufTy).Contents (Elt F) → (⟨S8x1x508x508, .f32⟩ : BufTy).Contents (Elt F)),
    reshape main_v36 main_v37 rfl shapeCasts_S8x1x508x508_S8x508x508,
    unary main_v37 main_v38 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v39 ((extractStridedSlice S8x3x508x508 ![0, 0, 1, 0] · slices_S8x3x512x512_S8x3x508x508_0_0_1_0) : (⟨S8x3x512x512, .f32⟩ : BufTy).Contents (Elt F) → (⟨S8x3x508x508, .f32⟩ : BufTy).Contents (Elt F)),
    unary main_v38 main_v40 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v40 main_v39 main_v41 (mulf : (⟨S8x3x508x508, .f32⟩ : BufTy).Contents (Elt F) → (⟨S8x3x508x508, .f32⟩ : BufTy).Contents (Elt F) → (⟨S8x3x508x508, .f32⟩ : BufTy).Contents (Elt F)),
    binary main_v35 main_v41 main_v42 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v43 ((extractStridedSlice S8x1x508x508 ![0, 6, 0, 0] · slices_S8x25x508x508_S8x1x508x508_0_6_0_0) : (⟨S8x25x508x508, .f32⟩ : BufTy).Contents (Elt F) → (⟨S8x1x508x508, .f32⟩ : BufTy).Contents (Elt F)),
    reshape main_v43 main_v44 rfl shapeCasts_S8x1x508x508_S8x508x508,
    unary main_v44 main_v45 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v46 ((extractStridedSlice S8x3x508x508 ![0, 0, 1, 1] · slices_S8x3x512x512_S8x3x508x508_0_0_1_1) : (⟨S8x3x512x512, .f32⟩ : BufTy).Contents (Elt F) → (⟨S8x3x508x508, .f32⟩ : BufTy).Contents (Elt F)),
    unary main_v45 main_v47 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v47 main_v46 main_v48 (mulf : (⟨S8x3x508x508, .f32⟩ : BufTy).Contents (Elt F) → (⟨S8x3x508x508, .f32⟩ : BufTy).Contents (Elt F) → (⟨S8x3x508x508, .f32⟩ : BufTy).Contents (Elt F)),
    binary main_v42 main_v48 main_v49 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v50 ((extractStridedSlice S8x1x508x508 ![0, 7, 0, 0] · slices_S8x25x508x508_S8x1x508x508_0_7_0_0) : (⟨S8x25x508x508, .f32⟩ : BufTy).Contents (Elt F) → (⟨S8x1x508x508, .f32⟩ : BufTy).Contents (Elt F)),
    reshape main_v50 main_v51 rfl shapeCasts_S8x1x508x508_S8x508x508,
    unary main_v51 main_v52 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v53 ((extractStridedSlice S8x3x508x508 ![0, 0, 1, 2] · slices_S8x3x512x512_S8x3x508x508_0_0_1_2) : (⟨S8x3x512x512, .f32⟩ : BufTy).Contents (Elt F) → (⟨S8x3x508x508, .f32⟩ : BufTy).Contents (Elt F)),
    unary main_v52 main_v54 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v54 main_v53 main_v55 (mulf : (⟨S8x3x508x508, .f32⟩ : BufTy).Contents (Elt F) → (⟨S8x3x508x508, .f32⟩ : BufTy).Contents (Elt F) → (⟨S8x3x508x508, .f32⟩ : BufTy).Contents (Elt F)),
    binary main_v49 main_v55 main_v56 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v57 ((extractStridedSlice S8x1x508x508 ![0, 8, 0, 0] · slices_S8x25x508x508_S8x1x508x508_0_8_0_0) : (⟨S8x25x508x508, .f32⟩ : BufTy).Contents (Elt F) → (⟨S8x1x508x508, .f32⟩ : BufTy).Contents (Elt F)),
    reshape main_v57 main_v58 rfl shapeCasts_S8x1x508x508_S8x508x508 ]

/-- @main's operations 61 … 120 of 180 (window `main_part1`). -/
abbrev ops1 : List (HloOp τ sig (Elt F)) :=
  [ unary main_v58 main_v59 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v60 ((extractStridedSlice S8x3x508x508 ![0, 0, 1, 3] · slices_S8x3x512x512_S8x3x508x508_0_0_1_3) : (⟨S8x3x512x512, .f32⟩ : BufTy).Contents (Elt F) → (⟨S8x3x508x508, .f32⟩ : BufTy).Contents (Elt F)),
    unary main_v59 main_v61 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v61 main_v60 main_v62 (mulf : (⟨S8x3x508x508, .f32⟩ : BufTy).Contents (Elt F) → (⟨S8x3x508x508, .f32⟩ : BufTy).Contents (Elt F) → (⟨S8x3x508x508, .f32⟩ : BufTy).Contents (Elt F)),
    binary main_v56 main_v62 main_v63 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v64 ((extractStridedSlice S8x1x508x508 ![0, 9, 0, 0] · slices_S8x25x508x508_S8x1x508x508_0_9_0_0) : (⟨S8x25x508x508, .f32⟩ : BufTy).Contents (Elt F) → (⟨S8x1x508x508, .f32⟩ : BufTy).Contents (Elt F)),
    reshape main_v64 main_v65 rfl shapeCasts_S8x1x508x508_S8x508x508,
    unary main_v65 main_v66 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v67 ((extractStridedSlice S8x3x508x508 ![0, 0, 1, 4] · slices_S8x3x512x512_S8x3x508x508_0_0_1_4) : (⟨S8x3x512x512, .f32⟩ : BufTy).Contents (Elt F) → (⟨S8x3x508x508, .f32⟩ : BufTy).Contents (Elt F)),
    unary main_v66 main_v68 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v68 main_v67 main_v69 (mulf : (⟨S8x3x508x508, .f32⟩ : BufTy).Contents (Elt F) → (⟨S8x3x508x508, .f32⟩ : BufTy).Contents (Elt F) → (⟨S8x3x508x508, .f32⟩ : BufTy).Contents (Elt F)),
    binary main_v63 main_v69 main_v70 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v71 ((extractStridedSlice S8x1x508x508 ![0, 10, 0, 0] · slices_S8x25x508x508_S8x1x508x508_0_10_0_0) : (⟨S8x25x508x508, .f32⟩ : BufTy).Contents (Elt F) → (⟨S8x1x508x508, .f32⟩ : BufTy).Contents (Elt F)),
    reshape main_v71 main_v72 rfl shapeCasts_S8x1x508x508_S8x508x508,
    unary main_v72 main_v73 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v74 ((extractStridedSlice S8x3x508x508 ![0, 0, 2, 0] · slices_S8x3x512x512_S8x3x508x508_0_0_2_0) : (⟨S8x3x512x512, .f32⟩ : BufTy).Contents (Elt F) → (⟨S8x3x508x508, .f32⟩ : BufTy).Contents (Elt F)),
    unary main_v73 main_v75 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v75 main_v74 main_v76 (mulf : (⟨S8x3x508x508, .f32⟩ : BufTy).Contents (Elt F) → (⟨S8x3x508x508, .f32⟩ : BufTy).Contents (Elt F) → (⟨S8x3x508x508, .f32⟩ : BufTy).Contents (Elt F)),
    binary main_v70 main_v76 main_v77 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v78 ((extractStridedSlice S8x1x508x508 ![0, 11, 0, 0] · slices_S8x25x508x508_S8x1x508x508_0_11_0_0) : (⟨S8x25x508x508, .f32⟩ : BufTy).Contents (Elt F) → (⟨S8x1x508x508, .f32⟩ : BufTy).Contents (Elt F)),
    reshape main_v78 main_v79 rfl shapeCasts_S8x1x508x508_S8x508x508,
    unary main_v79 main_v80 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v81 ((extractStridedSlice S8x3x508x508 ![0, 0, 2, 1] · slices_S8x3x512x512_S8x3x508x508_0_0_2_1) : (⟨S8x3x512x512, .f32⟩ : BufTy).Contents (Elt F) → (⟨S8x3x508x508, .f32⟩ : BufTy).Contents (Elt F)),
    unary main_v80 main_v82 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v82 main_v81 main_v83 (mulf : (⟨S8x3x508x508, .f32⟩ : BufTy).Contents (Elt F) → (⟨S8x3x508x508, .f32⟩ : BufTy).Contents (Elt F) → (⟨S8x3x508x508, .f32⟩ : BufTy).Contents (Elt F)),
    binary main_v77 main_v83 main_v84 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v85 ((extractStridedSlice S8x1x508x508 ![0, 12, 0, 0] · slices_S8x25x508x508_S8x1x508x508_0_12_0_0) : (⟨S8x25x508x508, .f32⟩ : BufTy).Contents (Elt F) → (⟨S8x1x508x508, .f32⟩ : BufTy).Contents (Elt F)),
    reshape main_v85 main_v86 rfl shapeCasts_S8x1x508x508_S8x508x508,
    unary main_v86 main_v87 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v88 ((extractStridedSlice S8x3x508x508 ![0, 0, 2, 2] · slices_S8x3x512x512_S8x3x508x508_0_0_2_2) : (⟨S8x3x512x512, .f32⟩ : BufTy).Contents (Elt F) → (⟨S8x3x508x508, .f32⟩ : BufTy).Contents (Elt F)),
    unary main_v87 main_v89 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v89 main_v88 main_v90 (mulf : (⟨S8x3x508x508, .f32⟩ : BufTy).Contents (Elt F) → (⟨S8x3x508x508, .f32⟩ : BufTy).Contents (Elt F) → (⟨S8x3x508x508, .f32⟩ : BufTy).Contents (Elt F)),
    binary main_v84 main_v90 main_v91 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v92 ((extractStridedSlice S8x1x508x508 ![0, 13, 0, 0] · slices_S8x25x508x508_S8x1x508x508_0_13_0_0) : (⟨S8x25x508x508, .f32⟩ : BufTy).Contents (Elt F) → (⟨S8x1x508x508, .f32⟩ : BufTy).Contents (Elt F)),
    reshape main_v92 main_v93 rfl shapeCasts_S8x1x508x508_S8x508x508,
    unary main_v93 main_v94 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v95 ((extractStridedSlice S8x3x508x508 ![0, 0, 2, 3] · slices_S8x3x512x512_S8x3x508x508_0_0_2_3) : (⟨S8x3x512x512, .f32⟩ : BufTy).Contents (Elt F) → (⟨S8x3x508x508, .f32⟩ : BufTy).Contents (Elt F)),
    unary main_v94 main_v96 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v96 main_v95 main_v97 (mulf : (⟨S8x3x508x508, .f32⟩ : BufTy).Contents (Elt F) → (⟨S8x3x508x508, .f32⟩ : BufTy).Contents (Elt F) → (⟨S8x3x508x508, .f32⟩ : BufTy).Contents (Elt F)),
    binary main_v91 main_v97 main_v98 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v99 ((extractStridedSlice S8x1x508x508 ![0, 14, 0, 0] · slices_S8x25x508x508_S8x1x508x508_0_14_0_0) : (⟨S8x25x508x508, .f32⟩ : BufTy).Contents (Elt F) → (⟨S8x1x508x508, .f32⟩ : BufTy).Contents (Elt F)),
    reshape main_v99 main_v100 rfl shapeCasts_S8x1x508x508_S8x508x508,
    unary main_v100 main_v101 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v102 ((extractStridedSlice S8x3x508x508 ![0, 0, 2, 4] · slices_S8x3x512x512_S8x3x508x508_0_0_2_4) : (⟨S8x3x512x512, .f32⟩ : BufTy).Contents (Elt F) → (⟨S8x3x508x508, .f32⟩ : BufTy).Contents (Elt F)),
    unary main_v101 main_v103 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v103 main_v102 main_v104 (mulf : (⟨S8x3x508x508, .f32⟩ : BufTy).Contents (Elt F) → (⟨S8x3x508x508, .f32⟩ : BufTy).Contents (Elt F) → (⟨S8x3x508x508, .f32⟩ : BufTy).Contents (Elt F)),
    binary main_v98 main_v104 main_v105 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v106 ((extractStridedSlice S8x1x508x508 ![0, 15, 0, 0] · slices_S8x25x508x508_S8x1x508x508_0_15_0_0) : (⟨S8x25x508x508, .f32⟩ : BufTy).Contents (Elt F) → (⟨S8x1x508x508, .f32⟩ : BufTy).Contents (Elt F)),
    reshape main_v106 main_v107 rfl shapeCasts_S8x1x508x508_S8x508x508,
    unary main_v107 main_v108 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v109 ((extractStridedSlice S8x3x508x508 ![0, 0, 3, 0] · slices_S8x3x512x512_S8x3x508x508_0_0_3_0) : (⟨S8x3x512x512, .f32⟩ : BufTy).Contents (Elt F) → (⟨S8x3x508x508, .f32⟩ : BufTy).Contents (Elt F)),
    unary main_v108 main_v110 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v110 main_v109 main_v111 (mulf : (⟨S8x3x508x508, .f32⟩ : BufTy).Contents (Elt F) → (⟨S8x3x508x508, .f32⟩ : BufTy).Contents (Elt F) → (⟨S8x3x508x508, .f32⟩ : BufTy).Contents (Elt F)),
    binary main_v105 main_v111 main_v112 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v113 ((extractStridedSlice S8x1x508x508 ![0, 16, 0, 0] · slices_S8x25x508x508_S8x1x508x508_0_16_0_0) : (⟨S8x25x508x508, .f32⟩ : BufTy).Contents (Elt F) → (⟨S8x1x508x508, .f32⟩ : BufTy).Contents (Elt F)),
    reshape main_v113 main_v114 rfl shapeCasts_S8x1x508x508_S8x508x508,
    unary main_v114 main_v115 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v116 ((extractStridedSlice S8x3x508x508 ![0, 0, 3, 1] · slices_S8x3x512x512_S8x3x508x508_0_0_3_1) : (⟨S8x3x512x512, .f32⟩ : BufTy).Contents (Elt F) → (⟨S8x3x508x508, .f32⟩ : BufTy).Contents (Elt F)),
    unary main_v115 main_v117 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v117 main_v116 main_v118 (mulf : (⟨S8x3x508x508, .f32⟩ : BufTy).Contents (Elt F) → (⟨S8x3x508x508, .f32⟩ : BufTy).Contents (Elt F) → (⟨S8x3x508x508, .f32⟩ : BufTy).Contents (Elt F)) ]

/-- @main's operations 121 … 180 of 180 (window `main_part2`). -/
abbrev ops2 : List (HloOp τ sig (Elt F)) :=
  [ binary main_v112 main_v118 main_v119 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v120 ((extractStridedSlice S8x1x508x508 ![0, 17, 0, 0] · slices_S8x25x508x508_S8x1x508x508_0_17_0_0) : (⟨S8x25x508x508, .f32⟩ : BufTy).Contents (Elt F) → (⟨S8x1x508x508, .f32⟩ : BufTy).Contents (Elt F)),
    reshape main_v120 main_v121 rfl shapeCasts_S8x1x508x508_S8x508x508,
    unary main_v121 main_v122 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v123 ((extractStridedSlice S8x3x508x508 ![0, 0, 3, 2] · slices_S8x3x512x512_S8x3x508x508_0_0_3_2) : (⟨S8x3x512x512, .f32⟩ : BufTy).Contents (Elt F) → (⟨S8x3x508x508, .f32⟩ : BufTy).Contents (Elt F)),
    unary main_v122 main_v124 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v124 main_v123 main_v125 (mulf : (⟨S8x3x508x508, .f32⟩ : BufTy).Contents (Elt F) → (⟨S8x3x508x508, .f32⟩ : BufTy).Contents (Elt F) → (⟨S8x3x508x508, .f32⟩ : BufTy).Contents (Elt F)),
    binary main_v119 main_v125 main_v126 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v127 ((extractStridedSlice S8x1x508x508 ![0, 18, 0, 0] · slices_S8x25x508x508_S8x1x508x508_0_18_0_0) : (⟨S8x25x508x508, .f32⟩ : BufTy).Contents (Elt F) → (⟨S8x1x508x508, .f32⟩ : BufTy).Contents (Elt F)),
    reshape main_v127 main_v128 rfl shapeCasts_S8x1x508x508_S8x508x508,
    unary main_v128 main_v129 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v130 ((extractStridedSlice S8x3x508x508 ![0, 0, 3, 3] · slices_S8x3x512x512_S8x3x508x508_0_0_3_3) : (⟨S8x3x512x512, .f32⟩ : BufTy).Contents (Elt F) → (⟨S8x3x508x508, .f32⟩ : BufTy).Contents (Elt F)),
    unary main_v129 main_v131 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v131 main_v130 main_v132 (mulf : (⟨S8x3x508x508, .f32⟩ : BufTy).Contents (Elt F) → (⟨S8x3x508x508, .f32⟩ : BufTy).Contents (Elt F) → (⟨S8x3x508x508, .f32⟩ : BufTy).Contents (Elt F)),
    binary main_v126 main_v132 main_v133 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v134 ((extractStridedSlice S8x1x508x508 ![0, 19, 0, 0] · slices_S8x25x508x508_S8x1x508x508_0_19_0_0) : (⟨S8x25x508x508, .f32⟩ : BufTy).Contents (Elt F) → (⟨S8x1x508x508, .f32⟩ : BufTy).Contents (Elt F)),
    reshape main_v134 main_v135 rfl shapeCasts_S8x1x508x508_S8x508x508,
    unary main_v135 main_v136 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v137 ((extractStridedSlice S8x3x508x508 ![0, 0, 3, 4] · slices_S8x3x512x512_S8x3x508x508_0_0_3_4) : (⟨S8x3x512x512, .f32⟩ : BufTy).Contents (Elt F) → (⟨S8x3x508x508, .f32⟩ : BufTy).Contents (Elt F)),
    unary main_v136 main_v138 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v138 main_v137 main_v139 (mulf : (⟨S8x3x508x508, .f32⟩ : BufTy).Contents (Elt F) → (⟨S8x3x508x508, .f32⟩ : BufTy).Contents (Elt F) → (⟨S8x3x508x508, .f32⟩ : BufTy).Contents (Elt F)),
    binary main_v133 main_v139 main_v140 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v141 ((extractStridedSlice S8x1x508x508 ![0, 20, 0, 0] · slices_S8x25x508x508_S8x1x508x508_0_20_0_0) : (⟨S8x25x508x508, .f32⟩ : BufTy).Contents (Elt F) → (⟨S8x1x508x508, .f32⟩ : BufTy).Contents (Elt F)),
    reshape main_v141 main_v142 rfl shapeCasts_S8x1x508x508_S8x508x508,
    unary main_v142 main_v143 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v144 ((extractStridedSlice S8x3x508x508 ![0, 0, 4, 0] · slices_S8x3x512x512_S8x3x508x508_0_0_4_0) : (⟨S8x3x512x512, .f32⟩ : BufTy).Contents (Elt F) → (⟨S8x3x508x508, .f32⟩ : BufTy).Contents (Elt F)),
    unary main_v143 main_v145 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v145 main_v144 main_v146 (mulf : (⟨S8x3x508x508, .f32⟩ : BufTy).Contents (Elt F) → (⟨S8x3x508x508, .f32⟩ : BufTy).Contents (Elt F) → (⟨S8x3x508x508, .f32⟩ : BufTy).Contents (Elt F)),
    binary main_v140 main_v146 main_v147 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v148 ((extractStridedSlice S8x1x508x508 ![0, 21, 0, 0] · slices_S8x25x508x508_S8x1x508x508_0_21_0_0) : (⟨S8x25x508x508, .f32⟩ : BufTy).Contents (Elt F) → (⟨S8x1x508x508, .f32⟩ : BufTy).Contents (Elt F)),
    reshape main_v148 main_v149 rfl shapeCasts_S8x1x508x508_S8x508x508,
    unary main_v149 main_v150 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v151 ((extractStridedSlice S8x3x508x508 ![0, 0, 4, 1] · slices_S8x3x512x512_S8x3x508x508_0_0_4_1) : (⟨S8x3x512x512, .f32⟩ : BufTy).Contents (Elt F) → (⟨S8x3x508x508, .f32⟩ : BufTy).Contents (Elt F)),
    unary main_v150 main_v152 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v152 main_v151 main_v153 (mulf : (⟨S8x3x508x508, .f32⟩ : BufTy).Contents (Elt F) → (⟨S8x3x508x508, .f32⟩ : BufTy).Contents (Elt F) → (⟨S8x3x508x508, .f32⟩ : BufTy).Contents (Elt F)),
    binary main_v147 main_v153 main_v154 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v155 ((extractStridedSlice S8x1x508x508 ![0, 22, 0, 0] · slices_S8x25x508x508_S8x1x508x508_0_22_0_0) : (⟨S8x25x508x508, .f32⟩ : BufTy).Contents (Elt F) → (⟨S8x1x508x508, .f32⟩ : BufTy).Contents (Elt F)),
    reshape main_v155 main_v156 rfl shapeCasts_S8x1x508x508_S8x508x508,
    unary main_v156 main_v157 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v158 ((extractStridedSlice S8x3x508x508 ![0, 0, 4, 2] · slices_S8x3x512x512_S8x3x508x508_0_0_4_2) : (⟨S8x3x512x512, .f32⟩ : BufTy).Contents (Elt F) → (⟨S8x3x508x508, .f32⟩ : BufTy).Contents (Elt F)),
    unary main_v157 main_v159 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v159 main_v158 main_v160 (mulf : (⟨S8x3x508x508, .f32⟩ : BufTy).Contents (Elt F) → (⟨S8x3x508x508, .f32⟩ : BufTy).Contents (Elt F) → (⟨S8x3x508x508, .f32⟩ : BufTy).Contents (Elt F)),
    binary main_v154 main_v160 main_v161 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v162 ((extractStridedSlice S8x1x508x508 ![0, 23, 0, 0] · slices_S8x25x508x508_S8x1x508x508_0_23_0_0) : (⟨S8x25x508x508, .f32⟩ : BufTy).Contents (Elt F) → (⟨S8x1x508x508, .f32⟩ : BufTy).Contents (Elt F)),
    reshape main_v162 main_v163 rfl shapeCasts_S8x1x508x508_S8x508x508,
    unary main_v163 main_v164 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v165 ((extractStridedSlice S8x3x508x508 ![0, 0, 4, 3] · slices_S8x3x512x512_S8x3x508x508_0_0_4_3) : (⟨S8x3x512x512, .f32⟩ : BufTy).Contents (Elt F) → (⟨S8x3x508x508, .f32⟩ : BufTy).Contents (Elt F)),
    unary main_v164 main_v166 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v166 main_v165 main_v167 (mulf : (⟨S8x3x508x508, .f32⟩ : BufTy).Contents (Elt F) → (⟨S8x3x508x508, .f32⟩ : BufTy).Contents (Elt F) → (⟨S8x3x508x508, .f32⟩ : BufTy).Contents (Elt F)),
    binary main_v161 main_v167 main_v168 (addf : (⟨S8x3x508x508, .f32⟩ : BufTy).Contents (Elt F) → (⟨S8x3x508x508, .f32⟩ : BufTy).Contents (Elt F) → (⟨S8x3x508x508, .f32⟩ : BufTy).Contents (Elt F)),
    unary main_arg0 main_v169 ((extractStridedSlice S8x1x508x508 ![0, 24, 0, 0] · slices_S8x25x508x508_S8x1x508x508_0_24_0_0) : (⟨S8x25x508x508, .f32⟩ : BufTy).Contents (Elt F) → (⟨S8x1x508x508, .f32⟩ : BufTy).Contents (Elt F)),
    reshape main_v169 main_v170 rfl shapeCasts_S8x1x508x508_S8x508x508,
    unary main_v170 main_v171 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v172 ((extractStridedSlice S8x3x508x508 ![0, 0, 4, 4] · slices_S8x3x512x512_S8x3x508x508_0_0_4_4) : (⟨S8x3x512x512, .f32⟩ : BufTy).Contents (Elt F) → (⟨S8x3x508x508, .f32⟩ : BufTy).Contents (Elt F)),
    unary main_v171 main_v173 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v173 main_v172 main_v174 (mulf : (⟨S8x3x508x508, .f32⟩ : BufTy).Contents (Elt F) → (⟨S8x3x508x508, .f32⟩ : BufTy).Contents (Elt F) → (⟨S8x3x508x508, .f32⟩ : BufTy).Contents (Elt F)),
    binary main_v168 main_v174 main_v175 (addf : (⟨S8x3x508x508, .f32⟩ : BufTy).Contents (Elt F) → (⟨S8x3x508x508, .f32⟩ : BufTy).Contents (Elt F) → (⟨S8x3x508x508, .f32⟩ : BufTy).Contents (Elt F)),
    nullary main_cst_0 (constant S_ .f32 0x00000000#32),
    binary main_arg0 main_cst_0 main_v176 ((fun x v => Host.reduceAdd x v reducesTo_S8x25x508x508_S8x508x508_d1 h_S_) : (⟨S8x25x508x508, .f32⟩ : BufTy).Contents (Elt F) → (⟨S_, .f32⟩ : BufTy).Contents (Elt F) → (⟨S8x508x508, .f32⟩ : BufTy).Contents (Elt F)),
    unary main_v176 main_v177 (broadcastInDim S8x1x508x508 ![0, 2, 3] bcast_S8x508x508_S8x1x508x508_0_2_3 : (⟨S8x508x508, .f32⟩ : BufTy).Contents (Elt F) → (⟨S8x1x508x508, .f32⟩ : BufTy).Contents (Elt F)) ]

/-- The last window only returns. -/
abbrev ops3 : List (HloOp τ sig (Elt F)) := []

/-- @main's 180 operations, in order: the four windows' lists, one after the other. -/
abbrev ops : List (HloOp τ sig (Elt F)) := ops0 ++ (ops1 ++ (ops2 ++ ops3))

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl
theorem main_part3_eq (c : Dev nD) : main_part3 (F := F) c = seq ops3 := rfl

set_option maxRecDepth 8192 in
/-- @main is the sequential program of its operations. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of window 0 touches TensorCore references only. -/
theorem ops0_sub : (ops0 : List (HloOp τ sig (Elt F))).Forall fun op => op.bufs ⊆ tcRefs τ sig :=
  ⟨nullary_bufs_sub .., unary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub ..⟩
set_option maxRecDepth 8192 in
/-- Every operation of window 0 determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of window 1 touches TensorCore references only. -/
theorem ops1_sub : (ops1 : List (HloOp τ sig (Elt F))).Forall fun op => op.bufs ⊆ tcRefs τ sig :=
  ⟨unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub ..⟩
set_option maxRecDepth 8192 in
/-- Every operation of window 1 determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of window 2 touches TensorCore references only. -/
theorem ops2_sub : (ops2 : List (HloOp τ sig (Elt F))).Forall fun op => op.bufs ⊆ tcRefs τ sig :=
  ⟨binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., nullary_bufs_sub .., binary_bufs_sub .., unary_bufs_sub ..⟩
set_option maxRecDepth 8192 in
/-- Every operation of window 2 determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, ops3, List.append_nil, List.mem_append] at h
    rcases h with h | h | h
    exacts [List.forall_iff_forall_mem.mp ops0_sub op h, List.forall_iff_forall_mem.mp ops1_sub op h, List.forall_iff_forall_mem.mp ops2_sub op h]

theorem ops_fresh : ∀ op ∈ (ops : List (HloOp τ sig (Elt F))), op.fresh = ∅ := fun op h => by
  simp only [ops, ops3, List.append_nil, List.mem_append] at h
  rcases h with h | h | h
  exacts [List.forall_iff_forall_mem.mp ops0_fresh op h, List.forall_iff_forall_mem.mp ops1_fresh op h, List.forall_iff_forall_mem.mp ops2_fresh op h]

/-- The fold over two lists in a row is the fold over the second from the fold over the first. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The fold over all of @main, window by window. -/
theorem after_ops (V : Valuation τ sig (Elt F)) : after ops V = after ops2 (after ops1 (after ops0 V)) := by
  simp only [ops, ops3, List.append_nil, after_append']

/-- On every device, for any float values, from any memory with zero counters: every weakly fair execution of @main
    terminates, and every TensorCore buffer ends at the three windows' folds over its device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after ops2 (after ops1 (after ops0 (launchContents m c))) (Proc.devRef .tc b) :=
  (θ_run defs _ _).mono (fun _ h c b => (h c b).trans (congrFun (after_ops _) _))
    (run_seq scopedRefs_eq scopedSems_eq defs main (fun _ => ops) main_eq (fun _ => ops_sub) m ρ (fun _ => ops_fresh))

end Cert.ReferenceIdeal.HandRun

end
-- ==== Proof.RefTerm.lean ====
/-
  The pure terms the reference's windows leave in their buffers.

  One tap's product, as the reference forms it: the tap's weight slab cut out of the kernel tensor and reshaped to drop
  its unit axis (`kslab`), broadcast back to a unit channel axis and then across the three channels, times the input
  cut at the tap's displacement (`tapOf`, `tapProd`). The accumulator after each window is the accumulator before it
  with that window's products added in tap order (`acc0`, `acc1`, `acc2`); the second result is the host's sum of the
  kernel tensor over its tap axis, given back its unit channel axis (`tapsumTerm`).
-/
import proofs.«113476_j29137058136307_1_alg».proof.Proof.Gen.ReferenceIdeal

noncomputable section

namespace Cert.ReferenceIdeal.HandRun

open Cert.ReferenceIdeal Cert.ReferenceIdeal.Gen Idealize.ShloMosaic

variable {F : FTy → Type} [FloatOps F]

/-- The zero word at every pixel: the accumulator the first product is added onto. -/
def zero3 : FVec F S8x3x508x508 .f32 :=
  broadcastInDim S8x3x508x508 ![] bcast_S_S8x3x508x508 (constant S_ .f32 0x00000000#32)

/-- Tap `k`'s weight slab `K[:, k:k+1]` with its unit axis dropped. -/
def kslab (k : ℕ) (hK : S8x25x508x508.Slices ![0, k, 0, 0] S8x1x508x508) (K : FVec F S8x25x508x508 .f32) :
    FVec F S8x508x508 .f32 :=
  shapeCast S8x508x508 (extractStridedSlice S8x1x508x508 ![0, k, 0, 0] K hK) shapeCasts_S8x1x508x508_S8x508x508

/-- A weight slab copied across the three channels, times the input cut at displacement `(di, dj)`. -/
def tapOf (s : FVec F S8x508x508 .f32) (di dj : ℕ) (hT : S8x3x512x512.Slices ![0, 0, di, dj] S8x3x508x508)
    (T : FVec F S8x3x512x512 .f32) : FVec F S8x3x508x508 .f32 :=
  mulf (broadcastInDim S8x3x508x508 ![0, 1, 2, 3] bcast_S8x1x508x508_S8x3x508x508_0_1_2_3
        (broadcastInDim S8x1x508x508 ![0, 2, 3] bcast_S8x508x508_S8x1x508x508_0_2_3 s))
    (extractStridedSlice S8x3x508x508 ![0, 0, di, dj] T hT)

/-- Tap `k`'s product at displacement `(di, dj)`. -/
def tapProd (k di dj : ℕ) (hK : S8x25x508x508.Slices ![0, k, 0, 0] S8x1x508x508)
    (hT : S8x3x512x512.Slices ![0, 0, di, dj] S8x3x508x508)
    (K : FVec F S8x25x508x508 .f32) (T : FVec F S8x3x512x512 .f32) : FVec F S8x3x508x508 .f32 :=
  tapOf (kslab k hK K) di dj hT T

/-- The accumulator after the first window: the zero word plus taps 0 … 7, in order. -/
def acc0 (K : FVec F S8x25x508x508 .f32) (T : FVec F S8x3x512x512 .f32) : FVec F S8x3x508x508 .f32 :=
  addf (addf (addf (addf (addf (addf (addf (addf zero3 (tapProd 0 0 0 slices_S8x25x508x508_S8x1x508x508_0_0_0_0 slices_S8x3x512x512_S8x3x508x508_0_0_0_0 K T)) (tapProd 1 0 1 slices_S8x25x508x508_S8x1x508x508_0_1_0_0 slices_S8x3x512x512_S8x3x508x508_0_0_0_1 K T)) (tapProd 2 0 2 slices_S8x25x508x508_S8x1x508x508_0_2_0_0 slices_S8x3x512x512_S8x3x508x508_0_0_0_2 K T)) (tapProd 3 0 3 slices_S8x25x508x508_S8x1x508x508_0_3_0_0 slices_S8x3x512x512_S8x3x508x508_0_0_0_3 K T)) (tapProd 4 0 4 slices_S8x25x508x508_S8x1x508x508_0_4_0_0 slices_S8x3x512x512_S8x3x508x508_0_0_0_4 K T)) (tapProd 5 1 0 slices_S8x25x508x508_S8x1x508x508_0_5_0_0 slices_S8x3x512x512_S8x3x508x508_0_0_1_0 K T)) (tapProd 6 1 1 slices_S8x25x508x508_S8x1x508x508_0_6_0_0 slices_S8x3x512x512_S8x3x508x508_0_0_1_1 K T)) (tapProd 7 1 2 slices_S8x25x508x508_S8x1x508x508_0_7_0_0 slices_S8x3x512x512_S8x3x508x508_0_0_1_2 K T)

/-- The accumulator after the second window, from the accumulator `A` before it and tap 8's slab `s` (cut in the
    first window): `A` plus taps 8 … 15, in order. -/
def acc1 (A : FVec F S8x3x508x508 .f32) (s : FVec F S8x508x508 .f32) (K : FVec F S8x25x508x508 .f32)
    (T : FVec F S8x3x512x512 .f32) : FVec F S8x3x508x508 .f32 :=
  addf (addf (addf (addf (addf (addf (addf (addf A (tapOf s 1 3 slices_S8x3x512x512_S8x3x508x508_0_0_1_3 T)) (tapProd 9 1 4 slices_S8x25x508x508_S8x1x508x508_0_9_0_0 slices_S8x3x512x512_S8x3x508x508_0_0_1_4 K T)) (tapProd 10 2 0 slices_S8x25x508x508_S8x1x508x508_0_10_0_0 slices_S8x3x512x512_S8x3x508x508_0_0_2_0 K T)) (tapProd 11 2 1 slices_S8x25x508x508_S8x1x508x508_0_11_0_0 slices_S8x3x512x512_S8x3x508x508_0_0_2_1 K T)) (tapProd 12 2 2 slices_S8x25x508x508_S8x1x508x508_0_12_0_0 slices_S8x3x512x512_S8x3x508x508_0_0_2_2 K T)) (tapProd 13 2 3 slices_S8x25x508x508_S8x1x508x508_0_13_0_0 slices_S8x3x512x512_S8x3x508x508_0_0_2_3 K T)) (tapProd 14 2 4 slices_S8x25x508x508_S8x1x508x508_0_14_0_0 slices_S8x3x512x512_S8x3x508x508_0_0_2_4 K T)) (tapProd 15 3 0 slices_S8x25x508x508_S8x1x508x508_0_15_0_0 slices_S8x3x512x512_S8x3x508x508_0_0_3_0 K T)

/-- The accumulator after the third window, from the accumulator `A` before it and tap 16's product `p` (formed in
    the second window): `A` plus `p` plus taps 17 … 24, in order. -/
def acc2 (A p : FVec F S8x3x508x508 .f32) (K : FVec F S8x25x508x508 .f32) (T : FVec F S8x3x512x512 .f32) :
    FVec F S8x3x508x508 .f32 :=
  addf (addf (addf (addf (addf (addf (addf (addf (addf A p) (tapProd 17 3 2 slices_S8x25x508x508_S8x1x508x508_0_17_0_0 slices_S8x3x512x512_S8x3x508x508_0_0_3_2 K T)) (tapProd 18 3 3 slices_S8x25x508x508_S8x1x508x508_0_18_0_0 slices_S8x3x512x512_S8x3x508x508_0_0_3_3 K T)) (tapProd 19 3 4 slices_S8x25x508x508_S8x1x508x508_0_19_0_0 slices_S8x3x512x512_S8x3x508x508_0_0_3_4 K T)) (tapProd 20 4 0 slices_S8x25x508x508_S8x1x508x508_0_20_0_0 slices_S8x3x512x512_S8x3x508x508_0_0_4_0 K T)) (tapProd 21 4 1 slices_S8x25x508x508_S8x1x508x508_0_21_0_0 slices_S8x3x512x512_S8x3x508x508_0_0_4_1 K T)) (tapProd 22 4 2 slices_S8x25x508x508_S8x1x508x508_0_22_0_0 slices_S8x3x512x512_S8x3x508x508_0_0_4_2 K T)) (tapProd 23 4 3 slices_S8x25x508x508_S8x1x508x508_0_23_0_0 slices_S8x3x512x512_S8x3x508x508_0_0_4_3 K T)) (tapProd 24 4 4 slices_S8x25x508x508_S8x1x508x508_0_24_0_0 slices_S8x3x512x512_S8x3x508x508_0_0_4_4 K T)

/-- The second result: the kernel tensor summed over its tap axis from the zero word, with a unit channel axis. -/
def tapsumTerm (K : FVec F S8x25x508x508 .f32) : FVec F S8x1x508x508 .f32 :=
  broadcastInDim S8x1x508x508 ![0, 2, 3] bcast_S8x508x508_S8x1x508x508_0_2_3
    (Host.reduceAdd K (constant (F := F) S_ .f32 0x00000000#32) reducesTo_S8x25x508x508_S8x508x508_d1 h_S_)

end Cert.ReferenceIdeal.HandRun

end
-- ==== Proof.RefWin0.lean ====
/-
  The first window of the reference (operations 1 … 60), read: from any contents `W` of the device's buffers it leaves
  the zero word plus taps 0 … 7 in the accumulator `%56`, tap 8's weight slab in `%58`, and the two arguments as they
  were.
-/
import proofs.«113476_j29137058136307_1_alg».proof.Proof.RefOps
import proofs.«113476_j29137058136307_1_alg».proof.Proof.RefTerm

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The accumulator after the first window. -/
theorem win0_acc (W : Valuation τ sig (Elt F)) :
    after ops0 W (Proc.devRef .tc main_v56) = acc0 (W (Proc.devRef .tc main_arg0)) (W (Proc.devRef .tc main_arg1)) := by
  simp only [ops0]
  after_results_simp
  rfl

set_option maxRecDepth 8192 in
set_option maxHeartbeats 8000000 in
/-- Tap 8's weight slab, cut and reshaped in the first window. -/
theorem win0_slab (W : Valuation τ sig (Elt F)) :
    after ops0 W (Proc.devRef .tc main_v58) = kslab 8 slices_S8x25x508x508_S8x1x508x508_0_8_0_0 (W (Proc.devRef .tc main_arg0)) := by
  simp only [ops0]
  after_results_simp
  rfl

set_option maxRecDepth 8192 in
set_option maxHeartbeats 8000000 in
/-- The first window leaves the kernel tensor as it was. -/
theorem win0_arg0 (W : Valuation τ sig (Elt F)) :
    after ops0 W (Proc.devRef .tc main_arg0) = W (Proc.devRef .tc main_arg0) := by
  simp only [ops0]
  after_results_simp

set_option maxRecDepth 8192 in
set_option maxHeartbeats 8000000 in
/-- The first window leaves the input as it was. -/
theorem win0_arg1 (W : Valuation τ sig (Elt F)) :
    after ops0 W (Proc.devRef .tc main_arg1) = W (Proc.devRef .tc main_arg1) := by
  simp only [ops0]
  after_results_simp

end Cert.ReferenceIdeal.HandRun

end
-- ==== Proof.RefWin1.lean ====
/-
  The second window of the reference (operations 61 … 120), read: from any contents `W` it adds taps 8 … 15 onto the
  accumulator `%56` (tap 8 from the slab `%58` the first window cut), leaving the sum in `%112`, forms tap 16's product
  in `%118`, and leaves the two arguments as they were.
-/
import proofs.«113476_j29137058136307_1_alg».proof.Proof.RefOps
import proofs.«113476_j29137058136307_1_alg».proof.Proof.RefTerm

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The accumulator after the second window. -/
theorem win1_acc (W : Valuation τ sig (Elt F)) :
    after ops1 W (Proc.devRef .tc main_v112) = acc1 (W (Proc.devRef .tc main_v56)) (W (Proc.devRef .tc main_v58)) (W (Proc.devRef .tc main_arg0)) (W (Proc.devRef .tc main_arg1)) := by
  simp only [ops1]
  after_results_simp
  rfl

set_option maxRecDepth 8192 in
set_option maxHeartbeats 8000000 in
/-- Tap 16's product, formed in the second window. -/
theorem win1_prod (W : Valuation τ sig (Elt F)) :
    after ops1 W (Proc.devRef .tc main_v118) = tapProd 16 3 1 slices_S8x25x508x508_S8x1x508x508_0_16_0_0 slices_S8x3x512x512_S8x3x508x508_0_0_3_1 (W (Proc.devRef .tc main_arg0)) (W (Proc.devRef .tc main_arg1)) := by
  simp only [ops1]
  after_results_simp
  rfl

set_option maxRecDepth 8192 in
set_option maxHeartbeats 8000000 in
/-- The second window leaves the kernel tensor as it was. -/
theorem win1_arg0 (W : Valuation τ sig (Elt F)) :
    after ops1 W (Proc.devRef .tc main_arg0) = W (Proc.devRef .tc main_arg0) := by
  simp only [ops1]
  after_results_simp

set_option maxRecDepth 8192 in
set_option maxHeartbeats 8000000 in
/-- The second window leaves the input as it was. -/
theorem win1_arg1 (W : Valuation τ sig (Elt F)) :
    after ops1 W (Proc.devRef .tc main_arg1) = W (Proc.devRef .tc main_arg1) := by
  simp only [ops1]
  after_results_simp

end Cert.ReferenceIdeal.HandRun

end
-- ==== Proof.RefWin2.lean ====
/-
  The third window of the reference (operations 121 … 180), read: from any contents `W` it adds tap 16's product
  `%118` and taps 17 … 24 onto the accumulator `%112`, leaving the first result in `%175`, sums the kernel tensor over
  its tap axis into the second result `%177`, and leaves the two arguments as they were.
-/
import proofs.«113476_j29137058136307_1_alg».proof.Proof.RefOps
import proofs.«113476_j29137058136307_1_alg».proof.Proof.RefTerm

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The first result. -/
theorem win2_res0 (W : Valuation τ sig (Elt F)) :
    after ops2 W (Proc.devRef .tc main_v175) = acc2 (W (Proc.devRef .tc main_v112)) (W (Proc.devRef .tc main_v118)) (W (Proc.devRef .tc main_arg0)) (W (Proc.devRef .tc main_arg1)) := by
  simp only [ops2]
  after_results_simp
  rfl

set_option maxRecDepth 8192 in
set_option maxHeartbeats 8000000 in
/-- The second result. -/
theorem win2_res1 (W : Valuation τ sig (Elt F)) :
    after ops2 W (Proc.devRef .tc main_v177) = tapsumTerm (W (Proc.devRef .tc main_arg0)) := by
  simp only [ops2]
  after_results_simp
  rfl

set_option maxRecDepth 8192 in
set_option maxHeartbeats 8000000 in
/-- The third window leaves the kernel tensor as it was. -/
theorem win2_arg0 (W : Valuation τ sig (Elt F)) :
    after ops2 W (Proc.devRef .tc main_arg0) = W (Proc.devRef .tc main_arg0) := by
  simp only [ops2]
  after_results_simp

set_option maxRecDepth 8192 in
set_option maxHeartbeats 8000000 in
/-- The third window leaves the input as it was. -/
theorem win2_arg1 (W : Valuation τ sig (Elt F)) :
    after ops2 W (Proc.devRef .tc main_arg1) = W (Proc.devRef .tc main_arg1) := by
  simp only [ops2]
  after_results_simp

end Cert.ReferenceIdeal.HandRun

end
-- ==== Proof.RefMath.lean ====
/-
  The reference's two results, index by index.

  Read at a pixel `(b, c, i, j)`, the accumulator the three windows leave is the zero word plus, in tap order, each tap's
  weight `K[b, k, i, j]` times the input pixel displaced by `(k / 5, k % 5)`: the filtered image of the specification.
  Read at `(b, 0, i, j)`, the second result is the zero word plus the sum of the 25 weights at the pixel: the tap sum.
-/
import proofs.«113476_j29137058136307_1_alg».proof.Proof.RefTerm
import proofs.«113476_j29137058136307_1_alg».proof.Proof.Spec
import proofs.«113476_j29137058136307_1_alg».proof.Proof.Taps
import Idealize.ShloMosaic.PureOps.Ideal.Laws
import Idealize.ShloMosaic.Lib.IdealHost
import Idealize.ShloMosaic.Lib.Pipeline.Value

noncomputable section

namespace Cert.ReferenceIdeal.HandRun

open Cert.ReferenceIdeal Cert.ReferenceIdeal.Gen Idealize.ShloMosaic Idealize.ShloMosaic.ValueIdx Cert.TapConv

/-- The accumulator's starting value reads the zero word at every pixel. -/
theorem zero3_apply (y : S8x3x508x508.Idx) : zero3 (F := Ideal) y = Ideal.ofBits .f32 0x00000000#32 := by
  unfold zero3
  rw [broadcastInDim_scalar_apply]
  rfl

/-- One tap's product at a pixel: the tap's weight there times the input pixel displaced by `(di, dj)`. -/
theorem tapOf_kslab_apply (K : FVec Ideal S8x25x508x508 .f32) (T : FVec Ideal S8x3x512x512 .f32)
    (k di dj : ℕ) (hk : k < 25) (hdi : di < 5) (hdj : dj < 5)
    (hK : S8x25x508x508.Slices ![0, k, 0, 0] S8x1x508x508) (hT : S8x3x512x512.Slices ![0, 0, di, dj] S8x3x508x508)
    (b : Fin 8) (c : Fin 3) (i j : Fin 508) :
    tapOf (kslab k hK K) di dj hT T (ix4 b c i j)
      = K (ix4 b ⟨k, hk⟩ i j)
        * T (ix4 b c ⟨i.val + di, by have := i.isLt; omega⟩ ⟨j.val + dj, by have := j.isLt; omega⟩) :=
  host_tap_apply K T k di dj hk hdi hdj hK _ _ _ hT b c i j

/-- The first result is the filtered image. -/
theorem weighted_eq (K : FVec Ideal S8x25x508x508 .f32) (T : FVec Ideal S8x3x512x512 .f32) :
    acc2 (acc1 (acc0 K T) (kslab 8 slices_S8x25x508x508_S8x1x508x508_0_8_0_0 K) K T)
        (tapProd 16 3 1 slices_S8x25x508x508_S8x1x508x508_0_16_0_0 slices_S8x3x512x512_S8x3x508x508_0_0_3_1 K T) K T
      = weighted (H := 508) (HT := 512) (by decide) K T := by
  funext y
  obtain ⟨b, c, i, j, rfl⟩ : ∃ (b : Fin 8) (c : Fin 3) (i j : Fin 508), y = ix4 b c i j :=
    ⟨y 0, y 1, y 2, y 3, eq_ix4 y⟩
  show _ = chain25 (Ideal.ofBits .f32 0x00000000#32) (fun k hk => tap (by decide) K T b c i j k hk)
  simp (disch := decide) only [acc2, acc1, acc0, tapProd, addf_apply, zero3_apply, tapOf_kslab_apply]
  unfold chain25 tap
  rfl

/-- The second result is the tap sum. -/
theorem tapsum_eq (K : FVec Ideal S8x25x508x508 .f32) : tapsumTerm K = tapsum (H := 508) K := by
  funext y
  obtain ⟨b, q, i, j, rfl⟩ : ∃ (b : Fin 8) (q : Fin 1) (i j : Fin 508), y = ix4 b q i j :=
    ⟨y 0, y 1, y 2, y 3, eq_ix4 y⟩
  have hR : S8x25x508x508.Reduces [1] S8x508x508 := by decide
  unfold tapsumTerm
  refine (broadcastInDim_apply _ bcast_S8x508x508_S8x1x508x508_0_2_3 _ (ix4 b q i j) (ix3 b i j) (fun a => ?_)).trans ?_
  · match a with
    | ⟨0, _⟩ => rfl
    | ⟨1, _⟩ => rfl
    | ⟨2, _⟩ => rfl
  rw [hostReduceAdd_apply, Ideal.hostReduceAdd_single _ hR]
  show Ideal.ofBits .f32 0x00000000#32 + _ = ∑ k : Fin 25, K (ix4 b k i j)
  rw [Ideal.ofBits_zero_f32, zero_add]
  refine Finset.sum_congr rfl (fun k _ => congrArg K (funext fun a => ?_))
  match a with
  | ⟨0, _⟩ => rfl
  | ⟨1, _⟩ => rfl
  | ⟨2, _⟩ => rfl
  | ⟨3, _⟩ => rfl

end Cert.ReferenceIdeal.HandRun

end
-- ==== Proof.RefValue.lean ====
/-
  The reference program's run, read.

  Every weakly fair execution of the idealized reference terminates without a fault. Its buffers end at the three
  windows' folds over the launch contents; window by window those are the accumulator terms of the two arguments, which
  index by index are the filtered image and the tap sums of the specification. The arguments are written by no operation.
-/
import proofs.«113476_j29137058136307_1_alg».proof.ReferenceIdeal
import proofs.«113476_j29137058136307_1_alg».proof.Proof.Gen.ReferenceIdeal
import proofs.«113476_j29137058136307_1_alg».proof.Proof.Spec
import proofs.«113476_j29137058136307_1_alg».proof.Proof.RefWin0
import proofs.«113476_j29137058136307_1_alg».proof.Proof.RefWin1
import proofs.«113476_j29137058136307_1_alg».proof.Proof.RefWin2
import proofs.«113476_j29137058136307_1_alg».proof.Proof.RefMath
import Idealize.ShloMosaic.Lib.StableHlo.Run

noncomputable section

namespace Cert.ReferenceIdeal.HandRun

open Cert.ReferenceIdeal Idealize.ShloMosaic Idealize.ShloMosaic.TcCoe Idealize.SL.Sem

section Join

open Cert.ReferenceIdeal.Gen Idealize.ShloMosaic.StableHlo

variable {F : FTy → Type} [FloatOps F]

/-- The first result after the three windows, as a term of the two arguments' contents before them. -/
theorem after_res0 (V : Valuation τ sig (Elt F)) :
    after ops2 (after ops1 (after ops0 V)) (Proc.devRef .tc main_v175)
      = acc2 (acc1 (acc0 (V (Proc.devRef .tc main_arg0)) (V (Proc.devRef .tc main_arg1)))
              (kslab 8 slices_S8x25x508x508_S8x1x508x508_0_8_0_0 (V (Proc.devRef .tc main_arg0)))
              (V (Proc.devRef .tc main_arg0)) (V (Proc.devRef .tc main_arg1)))
          (tapProd 16 3 1 slices_S8x25x508x508_S8x1x508x508_0_16_0_0 slices_S8x3x512x512_S8x3x508x508_0_0_3_1
              (V (Proc.devRef .tc main_arg0)) (V (Proc.devRef .tc main_arg1)))
          (V (Proc.devRef .tc main_arg0)) (V (Proc.devRef .tc main_arg1)) := by
  rw [win2_res0, win1_acc, win1_prod, win1_arg0, win1_arg1, win0_acc, win0_slab, win0_arg0, win0_arg1]

/-- The second result after the three windows. -/
theorem after_res1 (V : Valuation τ sig (Elt F)) :
    after ops2 (after ops1 (after ops0 V)) (Proc.devRef .tc main_v177) = tapsumTerm (V (Proc.devRef .tc main_arg0)) := by
  rw [win2_res1, win1_arg0, win0_arg0]

/-- No window writes the kernel tensor. -/
theorem after_arg0 (V : Valuation τ sig (Elt F)) :
    after ops2 (after ops1 (after ops0 V)) (Proc.devRef .tc main_arg0) = V (Proc.devRef .tc main_arg0) := by
  rw [win2_arg0, win1_arg0, win0_arg0]

/-- No window writes the input. -/
theorem after_arg1 (V : Valuation τ sig (Elt F)) :
    after ops2 (after ops1 (after ops0 V)) (Proc.devRef .tc main_arg1) = V (Proc.devRef .tc main_arg1) := by
  rw [win2_arg1, win1_arg1, win0_arg1]

end Join

/-- On every device, from any memory with zero counters: every weakly fair execution of the idealized reference
    terminates without a fault, its first result the filtered image of its arguments, its second their tap sums, the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v175)
          = Cert.TapConv.weighted (H := 508) (HT := 512) (by decide) (m ((c.tc : Thread nD τ).loc main_arg0)) (m ((c.tc : Thread nD τ).loc main_arg1))
      ∧ r.2.mem ((c.tc : Thread nD τ).loc main_v177) = Cert.TapConv.tapsum (H := 508) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c main_v175).trans (after_res0 _)).trans (weighted_eq _ _),
       ((h c main_v177).trans (after_res1 _)).trans (tapsum_eq _),
       (h c main_arg0).trans (after_arg0 _),
       (h c main_arg1).trans (after_arg1 _)⟩)
    (run_after m ρ)

end Cert.ReferenceIdeal.HandRun

end
-- ==== Proof.lean ====
/-
  The kernel computes, for a batch of 8 images with 3 channels, a per-pixel 5×5 filter whose 25 weights differ from pixel to
  pixel (the kernel tensor `K : [8, 25, 508, 508]`, tap `k = 5·di + dj`), and the sum of the 25 weights at each pixel:
      weighted[b, c, i, j] = ((0 + K[b,0,i,j]·T[b,c,i,j]) + K[b,1,i,j]·T[b,c,i,j+1]) + … + K[b,24,i,j]·T[b,c,i+4,j+4],
      tapsum[b, 0, i, j]   = ∑ₖ K[b,k,i,j].
  The reference forms both with whole-array slices, products and sums on the host. The kernel program pads the 508 rows of
  `K` to 512 and the 512 rows of `T` to 516 with zero rows, runs a grid of 8 × 4 points, each over a tile of 128 rows with a
  132-row window of the input (the tile and the 4 rows the taps reach below it), adding the 25 products in the same tap order
  onto zero, and keeps rows 0 … 507 of the two padded outputs.

  Why the two agree over the extended reals, with no condition on the entries: both add the same 25 products, each the same
  two factors in the same order, onto the same zero word, in the same order; the lane reduction over the tap axis and the
  host's reduce from zero are the same finite sum; and a kept row `i ≤ 507` reads the kernel tensor at row `i` and the input at
  rows `i … i + 4 ≤ 511`, where the padded arrays are the arrays as given, so the padding is never read. No law that could
  fail at an infinite entry (distributing, cancelling) is used; the precondition is not opened.

  The modules: Spec (the two functions, for any heights), Taps (one tap read at an index, in both programs' spellings),
  KernelBlock (what one grid point leaves in its two output blocks), KernelArray (the blocks tile the padded outputs; the
  slice; the padding rows), and for the reference RefOps (its 180 host operations as three windows of 60 and their run),
  RefTerm and RefWin0 … RefWin2 (what each window leaves in its buffers), RefMath (the 25-deep term read at a pixel) and
  RefValue (its run, read).
  The three frames: the two kernel programs' are the generated frame certificates; the reference's is its run with the
  results dropped. The idealization rewrote no operation, so `preserves` is `True`.
-/
import proofs.«113476_j29137058136307_1_alg».proof.Defs
import proofs.«113476_j29137058136307_1_alg».proof.Proof.Gen.Kernel
import proofs.«113476_j29137058136307_1_alg».proof.Proof.Gen.Kernel.Frame
import proofs.«113476_j29137058136307_1_alg».proof.Proof.Gen.KernelIdeal
import proofs.«113476_j29137058136307_1_alg».proof.Proof.Gen.KernelIdeal.Frame
import proofs.«113476_j29137058136307_1_alg».proof.Proof.Gen.ReferenceIdeal
import proofs.«113476_j29137058136307_1_alg».proof.Proof.Gen.Pre_finite_inputs
import proofs.«113476_j29137058136307_1_alg».proof.Proof.KernelArray
import proofs.«113476_j29137058136307_1_alg».proof.Proof.RefValue
import Idealize.ShloMosaic.Adequacy
import Idealize.ShloMosaic.Init

noncomputable section

namespace Cert.Proof

open Idealize.ShloMosaic Idealize.SL.Sem

/-- The word-level kernel program runs and leaves its arguments unchanged: its generated frame certificate. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.1, (h c).2.2.2⟩)
    (Cert.ReferenceIdeal.HandRun.run m ρ)

/-- Both idealized programs end with the filtered image and the tap sums of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.ArrayValue.run m ρ, ?_⟩
  refine (θ_run Cert.ReferenceIdeal.defs _ _).mono (fun _ h c => ⟨?_, ?_, (h c).2.2.1, (h c).2.2.2⟩)
    (Cert.ReferenceIdeal.HandRun.run m' ρ')
  · rw [(h c).1, (hagree c).1, (hagree c).2]
  · rw [(h c).2.1, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
